-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x131072 : Shape := ⟨2, ![10, 131072]⟩
abbrev S10x128 : Shape := ⟨2, ![10, 128]⟩
abbrev S10x128x1 : Shape := ⟨3, ![10, 128, 1]⟩
abbrev S10x128x128 : Shape := ⟨3, ![10, 128, 128]⟩
abbrev S1280x128 : Shape := ⟨2, ![1280, 128]⟩
abbrev S131072x128 : Shape := ⟨2, ![131072, 128]⟩
abbrev S10x8192 : Shape := ⟨2, ![10, 8192]⟩
abbrev S8192x128 : Shape := ⟨2, ![8192, 128]⟩
abbrev S1x128 : Shape := ⟨2, ![1, 128]⟩

abbrev nBuf : Space → Nat
  | .hbm => 9
  | .vmem => 6
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x131072, .f32⟩
  | .hbm, ⟨4, _⟩ => ⟨S10x128, .f32⟩
  | .hbm, ⟨5, _⟩ => ⟨S10x128x1, .f32⟩
  | .hbm, ⟨6, _⟩ => ⟨S10x128x128, .f32⟩
  | .hbm, ⟨7, _⟩ => ⟨S1280x128, .f32⟩
  | .hbm, ⟨8, _⟩ => ⟨S131072x128, .f32⟩
  | .local _ .vmem, ⟨0, _⟩ => ⟨S10x8192, .f32⟩
  | .local _ .vmem, ⟨1, _⟩ => ⟨S10x8192, .f32⟩
  | .local _ .vmem, ⟨2, _⟩ => ⟨S1280x128, .f32⟩
  | .local _ .vmem, ⟨3, _⟩ => ⟨S128x128, .f32⟩
  | .local _ .vmem, ⟨4, _⟩ => ⟨S8192x128, .f32⟩
  | .local _ .vmem, ⟨5, _⟩ => ⟨S8192x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S131072x10_S10x131072_1_0 : S131072x10.Transposes [1, 0] S10x131072
  transposes_S128x10_S10x128_1_0 : S128x10.Transposes [1, 0] S10x128
  bcast_S10x128_S10x128x1_0_1 : S10x128.BroadcastsInDim S10x128x1 (![0, 1] : Fin 2 → Fin S10x128x1.rank)
  bcast_S10x128x1_S10x128x128_0_1_2 : S10x128x1.BroadcastsInDim S10x128x128 (![0, 1, 2] : Fin 3 → Fin S10x128x128.rank)
  shapeCasts_S10x128x128_S1280x128 : S10x128x128.ShapeCasts S1280x128
  inb_S128x128_S128x128_0_0 : ∀ a, (![0, 0] : Fin 2 → Nat) a + S128x128.size a ≤ S128x128.size a
  h_S128x128 : 0 < S128x128.numel
  inb_S10x8192_S1x128_0_0 : ∀ a, (![0, 0] : Fin 2 → Nat) a + S1x128.size a ≤ S10x8192.size a
  h_S1x128 : 0 < S1x128.numel
  shapeCasts_S1x128_S1x128 : S1x128.ShapeCasts S1x128
  inb_S1280x128_S128x128_0_0 : ∀ a, (![0, 0] : Fin 2 → Nat) a + S128x128.size a ≤ S1280x128.size a
  shapeCasts_S128x128_S128x128 : S128x128.ShapeCasts S128x128
  broadcasts_S1x128_S128x128 : S1x128.Broadcasts S128x128
  inb_S10x8192_S1x128_1_0 : ∀ a, (![1, 0] : Fin 2 → Nat) a + S1x128.size a ≤ S10x8192.size a
  inb_S1280x128_S128x128_128_0 : ∀ a, (![128, 0] : Fin 2 → Nat) a + S128x128.size a ≤ S1280x128.size a
  inb_S10x8192_S1x128_2_0 : ∀ a, (![2, 0] : Fin 2 → Nat) a + S1x128.size a ≤ S10x8192.size a
  inb_S1280x128_S128x128_256_0 : ∀ a, (![256, 0] : Fin 2 → Nat) a + S128x128.size a ≤ S1280x128.size a
  inb_S10x8192_S1x128_3_0 : ∀ a, (![3, 0] : Fin 2 → Nat) a + S1x128.size a ≤ S10x8192.size a
  inb_S1280x128_S128x128_384_0 : ∀ a, (![384, 0] : Fin 2 → Nat) a + S128x128.size a ≤ S1280x128.size a
  inb_S10x8192_S1x128_4_0 : ∀ a, (![4, 0] : Fin 2 → Nat) a + S1x128.size a ≤ S10x8192.size a
  inb_S1280x128_S128x128_512_0 : ∀ a, (![512, 0] : Fin 2 → Nat) a + S128x128.size a ≤ S1280x128.size a
  inb_S10x8192_S1x128_5_0 : ∀ a, (![5, 0] : Fin 2 → Nat) a + S1x128.size a ≤ S10x8192.size a
  inb_S1280x128_S128x128_640_0 : ∀ a, (![640, 0] : Fin 2 → Nat) a + S128x128.size a ≤ S1280x128.size a
  inb_S10x8192_S1x128_6_0 : ∀ a, (![6, 0] : Fin 2 → Nat) a + S1x128.size a ≤ S10x8192.size a
  inb_S1280x128_S128x128_768_0 : ∀ a, (![768, 0] : Fin 2 → Nat) a + S128x128.size a ≤ S1280x128.size a
  inb_S10x8192_S1x128_7_0 : ∀ a, (![7, 0] : Fin 2 → Nat) a + S1x128.size a ≤ S10x8192.size a
  inb_S1280x128_S128x128_896_0 : ∀ a, (![896, 0] : Fin 2 → Nat) a + S128x128.size a ≤ S1280x128.size a
  inb_S10x8192_S1x128_8_0 : ∀ a, (![8, 0] : Fin 2 → Nat) a + S1x128.size a ≤ S10x8192.size a
  inb_S1280x128_S128x128_1024_0 : ∀ a, (![1024, 0] : Fin 2 → Nat) a + S128x128.size a ≤ S1280x128.size a
  inb_S10x8192_S1x128_9_0 : ∀ a, (![9, 0] : Fin 2 → Nat) a + S1x128.size a ≤ S10x8192.size a
  inb_S1280x128_S128x128_1152_0 : ∀ a, (![1152, 0] : Fin 2 → Nat) a + S128x128.size a ≤ S1280x128.size a
  inb_S8192x128_S128x128_0_0 : ∀ a, (![0, 0] : Fin 2 → Nat) a + S128x128.size a ≤ S8192x128.size a
  inb_S10x8192_S1x128_0_128 : ∀ a, (![0, 128] : Fin 2 → Nat) a + S1x128.size a ≤ S10x8192.size a
  inb_S10x8192_S1x128_1_128 : ∀ a, (![1, 128] : Fin 2 → Nat) a + S1x128.size a ≤ S10x8192.size a
  inb_S10x8192_S1x128_2_128 : ∀ a, (![2, 128] : Fin 2 → Nat) a + S1x128.size a ≤ S10x8192.size a
  inb_S10x8192_S1x128_3_128 : ∀ a, (![3, 128] : Fin 2 → Nat) a + S1x128.size a ≤ S10x8192.size a
  inb_S10x8192_S1x128_4_128 : ∀ a, (![4, 128] : Fin 2 → Nat) a + S1x128.size a ≤ S10x8192.size a
  inb_S10x8192_S1x128_5_128 : ∀ a, (![5, 128] : Fin 2 → Nat) a + S1x128.size a ≤ S10x8192.size a
  inb_S10x8192_S1x128_6_128 : ∀ a, (![6, 128] : Fin 2 → Nat) a + S1x128.size a ≤ S10x8192.size a
  inb_S10x8192_S1x128_7_128 : ∀ a, (![7, 128] : Fin 2 → Nat) a + S1x128.size a ≤ S10x8192.size a
  inb_S10x8192_S1x128_8_128 : ∀ a, (![8, 128] : Fin 2 → Nat) a + S1x128.size a ≤ S10x8192.size a
  inb_S10x8192_S1x128_9_128 : ∀ a, (![9, 128] : Fin 2 → Nat) a + S1x128.size a ≤ S10x8192.size a
  inb_S8192x128_S128x128_128_0 : ∀ a, (![128, 0] : Fin 2 → Nat) a + S128x128.size a ≤ S8192x128.size a
  inb_S10x8192_S1x128_0_256 : ∀ a, (![0, 256] : Fin 2 → Nat) a + S1x128.size a ≤ S10x8192.size a
  inb_S10x8192_S1x128_1_256 : ∀ a, (![1, 256] : Fin 2 → Nat) a + S1x128.size a ≤ S10x8192.size a
  inb_S10x8192_S1x128_2_256 : ∀ a, (![2, 256] : Fin 2 → Nat) a + S1x128.size a ≤ S10x8192.size a
  inb_S10x8192_S1x128_3_256 : ∀ a, (![3, 256] : Fin 2 → Nat) a + S1x128.size a ≤ S10x8192.size a
  inb_S10x8192_S1x128_4_256 : ∀ a, (![4, 256] : Fin 2 → Nat) a + S1x128.size a ≤ S10x8192.size a
  inb_S10x8192_S1x128_5_256 : ∀ a, (![5, 256] : Fin 2 → Nat) a + S1x128.size a ≤ S10x8192.size a
  inb_S10x8192_S1x128_6_256 : ∀ a, (![6, 256] : Fin 2 → Nat) a + S1x128.size a ≤ S10x8192.size a
  inb_S10x8192_S1x128_7_256 : ∀ a, (![7, 256] : Fin 2 → Nat) a + S1x128.size a ≤ S10x8192.size a
  inb_S10x8192_S1x128_8_256 : ∀ a, (![8, 256] : Fin 2 → Nat) a + S1x128.size a ≤ S10x8192.size a
  inb_S10x8192_S1x128_9_256 : ∀ a, (![9, 256] : Fin 2 → Nat) a + S1x128.size a ≤ S10x8192.size a
  inb_S8192x128_S128x128_256_0 : ∀ a, (![256, 0] : Fin 2 → Nat) a + S128x128.size a ≤ S8192x128.size a
  inb_S10x8192_S1x128_0_384 : ∀ a, (![0, 384] : Fin 2 → Nat) a + S1x128.size a ≤ S10x8192.size a
  inb_S10x8192_S1x128_1_384 : ∀ a, (![1, 384] : Fin 2 → Nat) a + S1x128.size a ≤ S10x8192.size a
  inb_S10x8192_S1x128_2_384 : ∀ a, (![2, 384] : Fin 2 → Nat) a + S1x128.size a ≤ S10x8192.size a
  inb_S10x8192_S1x128_3_384 : ∀ a, (![3, 384] : Fin 2 → Nat) a + S1x128.size a ≤ S10x8192.size a
  inb_S10x8192_S1x128_4_384 : ∀ a, (![4, 384] : Fin 2 → Nat) a + S1x128.size a ≤ S10x8192.size a
  inb_S10x8192_S1x128_5_384 : ∀ a, (![5, 384] : Fin 2 → Nat) a + S1x128.size a ≤ S10x8192.size a
  inb_S10x8192_S1x128_6_384 : ∀ a, (![6, 384] : Fin 2 → Nat) a + S1x128.size a ≤ S10x8192.size a
  inb_S10x8192_S1x128_7_384 : ∀ a, (![7, 384] : Fin 2 → Nat) a + S1x128.size a ≤ S10x8192.size a
  inb_S10x8192_S1x128_8_384 : ∀ a, (![8, 384] : Fin 2 → Nat) a + S1x128.size a ≤ S10x8192.size a
  inb_S10x8192_S1x128_9_384 : ∀ a, (![9, 384] : Fin 2 → Nat) a + S1x128.size a ≤ S10x8192.size a
  inb_S8192x128_S128x128_384_0 : ∀ a, (![384, 0] : Fin 2 → Nat) a + S128x128.size a ≤ S8192x128.size a
  inb_S10x8192_S1x128_0_512 : ∀ a, (![0, 512] : Fin 2 → Nat) a + S1x128.size a ≤ S10x8192.size a
  inb_S10x8192_S1x128_1_512 : ∀ a, (![1, 512] : Fin 2 → Nat) a + S1x128.size a ≤ S10x8192.size a
  inb_S10x8192_S1x128_2_512 : ∀ a, (![2, 512] : Fin 2 → Nat) a + S1x128.size a ≤ S10x8192.size a
  inb_S10x8192_S1x128_3_512 : ∀ a, (![3, 512] : Fin 2 → Nat) a + S1x128.size a ≤ S10x8192.size a
  inb_S10x8192_S1x128_4_512 : ∀ a, (![4, 512] : Fin 2 → Nat) a + S1x128.size a ≤ S10x8192.size a
  inb_S10x8192_S1x128_5_512 : ∀ a, (![5, 512] : Fin 2 → Nat) a + S1x128.size a ≤ S10x8192.size a
  inb_S10x8192_S1x128_6_512 : ∀ a, (![6, 512] : Fin 2 → Nat) a + S1x128.size a ≤ S10x8192.size a
  inb_S10x8192_S1x128_7_512 : ∀ a, (![7, 512] : Fin 2 → Nat) a + S1x128.size a ≤ S10x8192.size a
  inb_S10x8192_S1x128_8_512 : ∀ a, (![8, 512] : Fin 2 → Nat) a + S1x128.size a ≤ S10x8192.size a
  inb_S10x8192_S1x128_9_512 : ∀ a, (![9, 512] : Fin 2 → Nat) a + S1x128.size a ≤ S10x8192.size a
  inb_S8192x128_S128x128_512_0 : ∀ a, (![512, 0] : Fin 2 → Nat) a + S128x128.size a ≤ S8192x128.size a
  inb_S10x8192_S1x128_0_640 : ∀ a, (![0, 640] : Fin 2 → Nat) a + S1x128.size a ≤ S10x8192.size a
  inb_S10x8192_S1x128_1_640 : ∀ a, (![1, 640] : Fin 2 → Nat) a + S1x128.size a ≤ S10x8192.size a
  inb_S10x8192_S1x128_2_640 : ∀ a, (![2, 640] : Fin 2 → Nat) a + S1x128.size a ≤ S10x8192.size a
  inb_S10x8192_S1x128_3_640 : ∀ a, (![3, 640] : Fin 2 → Nat) a + S1x128.size a ≤ S10x8192.size a
  inb_S10x8192_S1x128_4_640 : ∀ a, (![4, 640] : Fin 2 → Nat) a + S1x128.size a ≤ S10x8192.size a
  inb_S10x8192_S1x128_5_640 : ∀ a, (![5, 640] : Fin 2 → Nat) a + S1x128.size a ≤ S10x8192.size a
  inb_S10x8192_S1x128_6_640 : ∀ a, (![6, 640] : Fin 2 → Nat) a + S1x128.size a ≤ S10x8192.size a
  inb_S10x8192_S1x128_7_640 : ∀ a, (![7, 640] : Fin 2 → Nat) a + S1x128.size a ≤ S10x8192.size a
  inb_S10x8192_S1x128_8_640 : ∀ a, (![8, 640] : Fin 2 → Nat) a + S1x128.size a ≤ S10x8192.size a
  inb_S10x8192_S1x128_9_640 : ∀ a, (![9, 640] : Fin 2 → Nat) a + S1x128.size a ≤ S10x8192.size a
  inb_S8192x128_S128x128_640_0 : ∀ a, (![640, 0] : Fin 2 → Nat) a + S128x128.size a ≤ S8192x128.size a
  inb_S10x8192_S1x128_0_768 : ∀ a, (![0, 768] : Fin 2 → Nat) a + S1x128.size a ≤ S10x8192.size a
  inb_S10x8192_S1x128_1_768 : ∀ a, (![1, 768] : Fin 2 → Nat) a + S1x128.size a ≤ S10x8192.size a
  inb_S10x8192_S1x128_2_768 : ∀ a, (![2, 768] : Fin 2 → Nat) a + S1x128.size a ≤ S10x8192.size a
  inb_S10x8192_S1x128_3_768 : ∀ a, (![3, 768] : Fin 2 → Nat) a + S1x128.size a ≤ S10x8192.size a
  inb_S10x8192_S1x128_4_768 : ∀ a, (![4, 768] : Fin 2 → Nat) a + S1x128.size a ≤ S10x8192.size a
  inb_S10x8192_S1x128_5_768 : ∀ a, (![5, 768] : Fin 2 → Nat) a + S1x128.size a ≤ S10x8192.size a
  inb_S10x8192_S1x128_6_768 : ∀ a, (![6, 768] : Fin 2 → Nat) a + S1x128.size a ≤ S10x8192.size a
  inb_S10x8192_S1x128_7_768 : ∀ a, (![7, 768] : Fin 2 → Nat) a + S1x128.size a ≤ S10x8192.size a
  inb_S10x8192_S1x128_8_768 : ∀ a, (![8, 768] : Fin 2 → Nat) a + S1x128.size a ≤ S10x8192.size a
  inb_S10x8192_S1x128_9_768 : ∀ a, (![9, 768] : Fin 2 → Nat) a + S1x128.size a ≤ S10x8192.size a
  inb_S8192x128_S128x128_768_0 : ∀ a, (![768, 0] : Fin 2 → Nat) a + S128x128.size a ≤ S8192x128.size a
  inb_S10x8192_S1x128_0_896 : ∀ a, (![0, 896] : Fin 2 → Nat) a + S1x128.size a ≤ S10x8192.size a
  inb_S10x8192_S1x128_1_896 : ∀ a, (![1, 896] : Fin 2 → Nat) a + S1x128.size a ≤ S10x8192.size a
  inb_S10x8192_S1x128_2_896 : ∀ a, (![2, 896] : Fin 2 → Nat) a + S1x128.size a ≤ S10x8192.size a
  inb_S10x8192_S1x128_3_896 : ∀ a, (![3, 896] : Fin 2 → Nat) a + S1x128.size a ≤ S10x8192.size a
  inb_S10x8192_S1x128_4_896 : ∀ a, (![4, 896] : Fin 2 → Nat) a + S1x128.size a ≤ S10x8192.size a
  inb_S10x8192_S1x128_5_896 : ∀ a, (![5, 896] : Fin 2 → Nat) a + S1x128.size a ≤ S10x8192.size a
  inb_S10x8192_S1x128_6_896 : ∀ a, (![6, 896] : Fin 2 → Nat) a + S1x128.size a ≤ S10x8192.size a
  inb_S10x8192_S1x128_7_896 : ∀ a, (![7, 896] : Fin 2 → Nat) a + S1x128.size a ≤ S10x8192.size a
  inb_S10x8192_S1x128_8_896 : ∀ a, (![8, 896] : Fin 2 → Nat) a + S1x128.size a ≤ S10x8192.size a
  inb_S10x8192_S1x128_9_896 : ∀ a, (![9, 896] : Fin 2 → Nat) a + S1x128.size a ≤ S10x8192.size a
  inb_S8192x128_S128x128_896_0 : ∀ a, (![896, 0] : Fin 2 → Nat) a + S128x128.size a ≤ S8192x128.size a
  inb_S10x8192_S1x128_0_1024 : ∀ a, (![0, 1024] : Fin 2 → Nat) a + S1x128.size a ≤ S10x8192.size a
  inb_S10x8192_S1x128_1_1024 : ∀ a, (![1, 1024] : Fin 2 → Nat) a + S1x128.size a ≤ S10x8192.size a
  inb_S10x8192_S1x128_2_1024 : ∀ a, (![2, 1024] : Fin 2 → Nat) a + S1x128.size a ≤ S10x8192.size a
  inb_S10x8192_S1x128_3_1024 : ∀ a, (![3, 1024] : Fin 2 → Nat) a + S1x128.size a ≤ S10x8192.size a
  inb_S10x8192_S1x128_4_1024 : ∀ a, (![4, 1024] : Fin 2 → Nat) a + S1x128.size a ≤ S10x8192.size a
  inb_S10x8192_S1x128_5_1024 : ∀ a, (![5, 1024] : Fin 2 → Nat) a + S1x128.size a ≤ S10x8192.size a
  inb_S10x8192_S1x128_6_1024 : ∀ a, (![6, 1024] : Fin 2 → Nat) a + S1x128.size a ≤ S10x8192.size a
  inb_S10x8192_S1x128_7_1024 : ∀ a, (![7, 1024] : Fin 2 → Nat) a + S1x128.size a ≤ S10x8192.size a
  inb_S10x8192_S1x128_8_1024 : ∀ a, (![8, 1024] : Fin 2 → Nat) a + S1x128.size a ≤ S10x8192.size a
  inb_S10x8192_S1x128_9_1024 : ∀ a, (![9, 1024] : Fin 2 → Nat) a + S1x128.size a ≤ S10x8192.size a
  inb_S8192x128_S128x128_1024_0 : ∀ a, (![1024, 0] : Fin 2 → Nat) a + S128x128.size a ≤ S8192x128.size a
  inb_S10x8192_S1x128_0_1152 : ∀ a, (![0, 1152] : Fin 2 → Nat) a + S1x128.size a ≤ S10x8192.size a
  inb_S10x8192_S1x128_1_1152 : ∀ a, (![1, 1152] : Fin 2 → Nat) a + S1x128.size a ≤ S10x8192.size a
  inb_S10x8192_S1x128_2_1152 : ∀ a, (![2, 1152] : Fin 2 → Nat) a + S1x128.size a ≤ S10x8192.size a
  inb_S10x8192_S1x128_3_1152 : ∀ a, (![3, 1152] : Fin 2 → Nat) a + S1x128.size a ≤ S10x8192.size a
  inb_S10x8192_S1x128_4_1152 : ∀ a, (![4, 1152] : Fin 2 → Nat) a + S1x128.size a ≤ S10x8192.size a
  inb_S10x8192_S1x128_5_1152 : ∀ a, (![5, 1152] : Fin 2 → Nat) a + S1x128.size a ≤ S10x8192.size a
  inb_S10x8192_S1x128_6_1152 : ∀ a, (![6, 1152] : Fin 2 → Nat) a + S1x128.size a ≤ S10x8192.size a
  inb_S10x8192_S1x128_7_1152 : ∀ a, (![7, 1152] : Fin 2 → Nat) a + S1x128.size a ≤ S10x8192.size a
  inb_S10x8192_S1x128_8_1152 : ∀ a, (![8, 1152] : Fin 2 → Nat) a + S1x128.size a ≤ S10x8192.size a
  inb_S10x8192_S1x128_9_1152 : ∀ a, (![9, 1152] : Fin 2 → Nat) a + S1x128.size a ≤ S10x8192.size a
  inb_S8192x128_S128x128_1152_0 : ∀ a, (![1152, 0] : Fin 2 → Nat) a + S128x128.size a ≤ S8192x128.size a
  inb_S10x8192_S1x128_0_1280 : ∀ a, (![0, 1280] : Fin 2 → Nat) a + S1x128.size a ≤ S10x8192.size a
  inb_S10x8192_S1x128_1_1280 : ∀ a, (![1, 1280] : Fin 2 → Nat) a + S1x128.size a ≤ S10x8192.size a
  inb_S10x8192_S1x128_2_1280 : ∀ a, (![2, 1280] : Fin 2 → Nat) a + S1x128.size a ≤ S10x8192.size a
  inb_S10x8192_S1x128_3_1280 : ∀ a, (![3, 1280] : Fin 2 → Nat) a + S1x128.size a ≤ S10x8192.size a
  inb_S10x8192_S1x128_4_1280 : ∀ a, (![4, 1280] : Fin 2 → Nat) a + S1x128.size a ≤ S10x8192.size a
  inb_S10x8192_S1x128_5_1280 : ∀ a, (![5, 1280] : Fin 2 → Nat) a + S1x128.size a ≤ S10x8192.size a
  inb_S10x8192_S1x128_6_1280 : ∀ a, (![6, 1280] : Fin 2 → Nat) a + S1x128.size a ≤ S10x8192.size a
  inb_S10x8192_S1x128_7_1280 : ∀ a, (![7, 1280] : Fin 2 → Nat) a + S1x128.size a ≤ S10x8192.size a
  inb_S10x8192_S1x128_8_1280 : ∀ a, (![8, 1280] : Fin 2 → Nat) a + S1x128.size a ≤ S10x8192.size a
  inb_S10x8192_S1x128_9_1280 : ∀ a, (![9, 1280] : Fin 2 → Nat) a + S1x128.size a ≤ S10x8192.size a
  inb_S8192x128_S128x128_1280_0 : ∀ a, (![1280, 0] : Fin 2 → Nat) a + S128x128.size a ≤ S8192x128.size a
  inb_S10x8192_S1x128_0_1408 : ∀ a, (![0, 1408] : Fin 2 → Nat) a + S1x128.size a ≤ S10x8192.size a
  inb_S10x8192_S1x128_1_1408 : ∀ a, (![1, 1408] : Fin 2 → Nat) a + S1x128.size a ≤ S10x8192.size a
  inb_S10x8192_S1x128_2_1408 : ∀ a, (![2, 1408] : Fin 2 → Nat) a + S1x128.size a ≤ S10x8192.size a
  inb_S10x8192_S1x128_3_1408 : ∀ a, (![3, 1408] : Fin 2 → Nat) a + S1x128.size a ≤ S10x8192.size a
  inb_S10x8192_S1x128_4_1408 : ∀ a, (![4, 1408] : Fin 2 → Nat) a + S1x128.size a ≤ S10x8192.size a
  inb_S10x8192_S1x128_5_1408 : ∀ a, (![5, 1408] : Fin 2 → Nat) a + S1x128.size a ≤ S10x8192.size a
  inb_S10x8192_S1x128_6_1408 : ∀ a, (![6, 1408] : Fin 2 → Nat) a + S1x128.size a ≤ S10x8192.size a
  inb_S10x8192_S1x128_7_1408 : ∀ a, (![7, 1408] : Fin 2 → Nat) a + S1x128.size a ≤ S10x8192.size a
  inb_S10x8192_S1x128_8_1408 : ∀ a, (![8, 1408] : Fin 2 → Nat) a + S1x128.size a ≤ S10x8192.size a
  inb_S10x8192_S1x128_9_1408 : ∀ a, (![9, 1408] : Fin 2 → Nat) a + S1x128.size a ≤ S10x8192.size a
  inb_S8192x128_S128x128_1408_0 : ∀ a, (![1408, 0] : Fin 2 → Nat) a + S128x128.size a ≤ S8192x128.size a
  inb_S10x8192_S1x128_0_1536 : ∀ a, (![0, 1536] : Fin 2 → Nat) a + S1x128.size a ≤ S10x8192.size a
  inb_S10x8192_S1x128_1_1536 : ∀ a, (![1, 1536] : Fin 2 → Nat) a + S1x128.size a ≤ S10x8192.size a
  inb_S10x8192_S1x128_2_1536 : ∀ a, (![2, 1536] : Fin 2 → Nat) a + S1x128.size a ≤ S10x8192.size a
  inb_S10x8192_S1x128_3_1536 : ∀ a, (![3, 1536] : Fin 2 → Nat) a + S1x128.size a ≤ S10x8192.size a
  inb_S10x8192_S1x128_4_1536 : ∀ a, (![4, 1536] : Fin 2 → Nat) a + S1x128.size a ≤ S10x8192.size a
  inb_S10x8192_S1x128_5_1536 : ∀ a, (![5, 1536] : Fin 2 → Nat) a + S1x128.size a ≤ S10x8192.size a
  inb_S10x8192_S1x128_6_1536 : ∀ a, (![6, 1536] : Fin 2 → Nat) a + S1x128.size a ≤ S10x8192.size a
  inb_S10x8192_S1x128_7_1536 : ∀ a, (![7, 1536] : Fin 2 → Nat) a + S1x128.size a ≤ S10x8192.size a
  inb_S10x8192_S1x128_8_1536 : ∀ a, (![8, 1536] : Fin 2 → Nat) a + S1x128.size a ≤ S10x8192.size a
  inb_S10x8192_S1x128_9_1536 : ∀ a, (![9, 1536] : Fin 2 → Nat) a + S1x128.size a ≤ S10x8192.size a
  inb_S8192x128_S128x128_1536_0 : ∀ a, (![1536, 0] : Fin 2 → Nat) a + S128x128.size a ≤ S8192x128.size a
  inb_S10x8192_S1x128_0_1664 : ∀ a, (![0, 1664] : Fin 2 → Nat) a + S1x128.size a ≤ S10x8192.size a
  inb_S10x8192_S1x128_1_1664 : ∀ a, (![1, 1664] : Fin 2 → Nat) a + S1x128.size a ≤ S10x8192.size a
  inb_S10x8192_S1x128_2_1664 : ∀ a, (![2, 1664] : Fin 2 → Nat) a + S1x128.size a ≤ S10x8192.size a
  inb_S10x8192_S1x128_3_1664 : ∀ a, (![3, 1664] : Fin 2 → Nat) a + S1x128.size a ≤ S10x8192.size a
  inb_S10x8192_S1x128_4_1664 : ∀ a, (![4, 1664] : Fin 2 → Nat) a + S1x128.size a ≤ S10x8192.size a
  inb_S10x8192_S1x128_5_1664 : ∀ a, (![5, 1664] : Fin 2 → Nat) a + S1x128.size a ≤ S10x8192.size a
  inb_S10x8192_S1x128_6_1664 : ∀ a, (![6, 1664] : Fin 2 → Nat) a + S1x128.size a ≤ S10x8192.size a
  inb_S10x8192_S1x128_7_1664 : ∀ a, (![7, 1664] : Fin 2 → Nat) a + S1x128.size a ≤ S10x8192.size a
  inb_S10x8192_S1x128_8_1664 : ∀ a, (![8, 1664] : Fin 2 → Nat) a + S1x128.size a ≤ S10x8192.size a
  inb_S10x8192_S1x128_9_1664 : ∀ a, (![9, 1664] : Fin 2 → Nat) a + S1x128.size a ≤ S10x8192.size a
  inb_S8192x128_S128x128_1664_0 : ∀ a, (![1664, 0] : Fin 2 → Nat) a + S128x128.size a ≤ S8192x128.size a
  inb_S10x8192_S1x128_0_1792 : ∀ a, (![0, 1792] : Fin 2 → Nat) a + S1x128.size a ≤ S10x8192.size a
  inb_S10x8192_S1x128_1_1792 : ∀ a, (![1, 1792] : Fin 2 → Nat) a + S1x128.size a ≤ S10x8192.size a
  inb_S10x8192_S1x128_2_1792 : ∀ a, (![2, 1792] : Fin 2 → Nat) a + S1x128.size a ≤ S10x8192.size a
  inb_S10x8192_S1x128_3_1792 : ∀ a, (![3, 1792] : Fin 2 → Nat) a + S1x128.size a ≤ S10x8192.size a
  inb_S10x8192_S1x128_4_1792 : ∀ a, (![4, 1792] : Fin 2 → Nat) a + S1x128.size a ≤ S10x8192.size a
  inb_S10x8192_S1x128_5_1792 : ∀ a, (![5, 1792] : Fin 2 → Nat) a + S1x128.size a ≤ S10x8192.size a
  inb_S10x8192_S1x128_6_1792 : ∀ a, (![6, 1792] : Fin 2 → Nat) a + S1x128.size a ≤ S10x8192.size a
  inb_S10x8192_S1x128_7_1792 : ∀ a, (![7, 1792] : Fin 2 → Nat) a + S1x128.size a ≤ S10x8192.size a
  inb_S10x8192_S1x128_8_1792 : ∀ a, (![8, 1792] : Fin 2 → Nat) a + S1x128.size a ≤ S10x8192.size a
  inb_S10x8192_S1x128_9_1792 : ∀ a, (![9, 1792] : Fin 2 → Nat) a + S1x128.size a ≤ S10x8192.size a
  inb_S8192x128_S128x128_1792_0 : ∀ a, (![1792, 0] : Fin 2 → Nat) a + S128x128.size a ≤ S8192x128.size a
  inb_S10x8192_S1x128_0_1920 : ∀ a, (![0, 1920] : Fin 2 → Nat) a + S1x128.size a ≤ S10x8192.size a
  inb_S10x8192_S1x128_1_1920 : ∀ a, (![1, 1920] : Fin 2 → Nat) a + S1x128.size a ≤ S10x8192.size a
  inb_S10x8192_S1x128_2_1920 : ∀ a, (![2, 1920] : Fin 2 → Nat) a + S1x128.size a ≤ S10x8192.size a
  inb_S10x8192_S1x128_3_1920 : ∀ a, (![3, 1920] : Fin 2 → Nat) a + S1x128.size a ≤ S10x8192.size a
  inb_S10x8192_S1x128_4_1920 : ∀ a, (![4, 1920] : Fin 2 → Nat) a + S1x128.size a ≤ S10x8192.size a
  inb_S10x8192_S1x128_5_1920 : ∀ a, (![5, 1920] : Fin 2 → Nat) a + S1x128.size a ≤ S10x8192.size a
  inb_S10x8192_S1x128_6_1920 : ∀ a, (![6, 1920] : Fin 2 → Nat) a + S1x128.size a ≤ S10x8192.size a
  inb_S10x8192_S1x128_7_1920 : ∀ a, (![7, 1920] : Fin 2 → Nat) a + S1x128.size a ≤ S10x8192.size a
  inb_S10x8192_S1x128_8_1920 : ∀ a, (![8, 1920] : Fin 2 → Nat) a + S1x128.size a ≤ S10x8192.size a
  inb_S10x8192_S1x128_9_1920 : ∀ a, (![9, 1920] : Fin 2 → Nat) a + S1x128.size a ≤ S10x8192.size a
  inb_S8192x128_S128x128_1920_0 : ∀ a, (![1920, 0] : Fin 2 → Nat) a + S128x128.size a ≤ S8192x128.size a
  inb_S10x8192_S1x128_0_2048 : ∀ a, (![0, 2048] : Fin 2 → Nat) a + S1x128.size a ≤ S10x8192.size a
  inb_S10x8192_S1x128_1_2048 : ∀ a, (![1, 2048] : Fin 2 → Nat) a + S1x128.size a ≤ S10x8192.size a
  inb_S10x8192_S1x128_2_2048 : ∀ a, (![2, 2048] : Fin 2 → Nat) a + S1x128.size a ≤ S10x8192.size a
  inb_S10x8192_S1x128_3_2048 : ∀ a, (![3, 2048] : Fin 2 → Nat) a + S1x128.size a ≤ S10x8192.size a
  inb_S10x8192_S1x128_4_2048 : ∀ a, (![4, 2048] : Fin 2 → Nat) a + S1x128.size a ≤ S10x8192.size a
  inb_S10x8192_S1x128_5_2048 : ∀ a, (![5, 2048] : Fin 2 → Nat) a + S1x128.size a ≤ S10x8192.size a
  inb_S10x8192_S1x128_6_2048 : ∀ a, (![6, 2048] : Fin 2 → Nat) a + S1x128.size a ≤ S10x8192.size a
  inb_S10x8192_S1x128_7_2048 : ∀ a, (![7, 2048] : Fin 2 → Nat) a + S1x128.size a ≤ S10x8192.size a
  inb_S10x8192_S1x128_8_2048 : ∀ a, (![8, 2048] : Fin 2 → Nat) a + S1x128.size a ≤ S10x8192.size a
  inb_S10x8192_S1x128_9_2048 : ∀ a, (![9, 2048] : Fin 2 → Nat) a + S1x128.size a ≤ S10x8192.size a
  inb_S8192x128_S128x128_2048_0 : ∀ a, (![2048, 0] : Fin 2 → Nat) a + S128x128.size a ≤ S8192x128.size a
  inb_S10x8192_S1x128_0_2176 : ∀ a, (![0, 2176] : Fin 2 → Nat) a + S1x128.size a ≤ S10x8192.size a
  inb_S10x8192_S1x128_1_2176 : ∀ a, (![1, 2176] : Fin 2 → Nat) a + S1x128.size a ≤ S10x8192.size a
  inb_S10x8192_S1x128_2_2176 : ∀ a, (![2, 2176] : Fin 2 → Nat) a + S1x128.size a ≤ S10x8192.size a
  inb_S10x8192_S1x128_3_2176 : ∀ a, (![3, 2176] : Fin 2 → Nat) a + S1x128.size a ≤ S10x8192.size a
  inb_S10x8192_S1x128_4_2176 : ∀ a, (![4, 2176] : Fin 2 → Nat) a + S1x128.size a ≤ S10x8192.size a
  inb_S10x8192_S1x128_5_2176 : ∀ a, (![5, 2176] : Fin 2 → Nat) a + S1x128.size a ≤ S10x8192.size a
  inb_S10x8192_S1x128_6_2176 : ∀ a, (![6, 2176] : Fin 2 → Nat) a + S1x128.size a ≤ S10x8192.size a
  inb_S10x8192_S1x128_7_2176 : ∀ a, (![7, 2176] : Fin 2 → Nat) a + S1x128.size a ≤ S10x8192.size a
  inb_S10x8192_S1x128_8_2176 : ∀ a, (![8, 2176] : Fin 2 → Nat) a + S1x128.size a ≤ S10x8192.size a
  inb_S10x8192_S1x128_9_2176 : ∀ a, (![9, 2176] : Fin 2 → Nat) a + S1x128.size a ≤ S10x8192.size a
  inb_S8192x128_S128x128_2176_0 : ∀ a, (![2176, 0] : Fin 2 → Nat) a + S128x128.size a ≤ S8192x128.size a
  inb_S10x8192_S1x128_0_2304 : ∀ a, (![0, 2304] : Fin 2 → Nat) a + S1x128.size a ≤ S10x8192.size a
  inb_S10x8192_S1x128_1_2304 : ∀ a, (![1, 2304] : Fin 2 → Nat) a + S1x128.size a ≤ S10x8192.size a
  inb_S10x8192_S1x128_2_2304 : ∀ a, (![2, 2304] : Fin 2 → Nat) a + S1x128.size a ≤ S10x8192.size a
  inb_S10x8192_S1x128_3_2304 : ∀ a, (![3, 2304] : Fin 2 → Nat) a + S1x128.size a ≤ S10x8192.size a
  inb_S10x8192_S1x128_4_2304 : ∀ a, (![4, 2304] : Fin 2 → Nat) a + S1x128.size a ≤ S10x8192.size a
  inb_S10x8192_S1x128_5_2304 : ∀ a, (![5, 2304] : Fin 2 → Nat) a + S1x128.size a ≤ S10x8192.size a
  inb_S10x8192_S1x128_6_2304 : ∀ a, (![6, 2304] : Fin 2 → Nat) a + S1x128.size a ≤ S10x8192.size a
  inb_S10x8192_S1x128_7_2304 : ∀ a, (![7, 2304] : Fin 2 → Nat) a + S1x128.size a ≤ S10x8192.size a
  inb_S10x8192_S1x128_8_2304 : ∀ a, (![8, 2304] : Fin 2 → Nat) a + S1x128.size a ≤ S10x8192.size a
  inb_S10x8192_S1x128_9_2304 : ∀ a, (![9, 2304] : Fin 2 → Nat) a + S1x128.size a ≤ S10x8192.size a
  inb_S8192x128_S128x128_2304_0 : ∀ a, (![2304, 0] : Fin 2 → Nat) a + S128x128.size a ≤ S8192x128.size a
  inb_S10x8192_S1x128_0_2432 : ∀ a, (![0, 2432] : Fin 2 → Nat) a + S1x128.size a ≤ S10x8192.size a
  inb_S10x8192_S1x128_1_2432 : ∀ a, (![1, 2432] : Fin 2 → Nat) a + S1x128.size a ≤ S10x8192.size a
  inb_S10x8192_S1x128_2_2432 : ∀ a, (![2, 2432] : Fin 2 → Nat) a + S1x128.size a ≤ S10x8192.size a
  inb_S10x8192_S1x128_3_2432 : ∀ a, (![3, 2432] : Fin 2 → Nat) a + S1x128.size a ≤ S10x8192.size a
  inb_S10x8192_S1x128_4_2432 : ∀ a, (![4, 2432] : Fin 2 → Nat) a + S1x128.size a ≤ S10x8192.size a
  inb_S10x8192_S1x128_5_2432 : ∀ a, (![5, 2432] : Fin 2 → Nat) a + S1x128.size a ≤ S10x8192.size a
  inb_S10x8192_S1x128_6_2432 : ∀ a, (![6, 2432] : Fin 2 → Nat) a + S1x128.size a ≤ S10x8192.size a
  inb_S10x8192_S1x128_7_2432 : ∀ a, (![7, 2432] : Fin 2 → Nat) a + S1x128.size a ≤ S10x8192.size a
  inb_S10x8192_S1x128_8_2432 : ∀ a, (![8, 2432] : Fin 2 → Nat) a + S1x128.size a ≤ S10x8192.size a
  inb_S10x8192_S1x128_9_2432 : ∀ a, (![9, 2432] : Fin 2 → Nat) a + S1x128.size a ≤ S10x8192.size a
  inb_S8192x128_S128x128_2432_0 : ∀ a, (![2432, 0] : Fin 2 → Nat) a + S128x128.size a ≤ S8192x128.size a
  inb_S10x8192_S1x128_0_2560 : ∀ a, (![0, 2560] : Fin 2 → Nat) a + S1x128.size a ≤ S10x8192.size a
  inb_S10x8192_S1x128_1_2560 : ∀ a, (![1, 2560] : Fin 2 → Nat) a + S1x128.size a ≤ S10x8192.size a
  inb_S10x8192_S1x128_2_2560 : ∀ a, (![2, 2560] : Fin 2 → Nat) a + S1x128.size a ≤ S10x8192.size a
  inb_S10x8192_S1x128_3_2560 : ∀ a, (![3, 2560] : Fin 2 → Nat) a + S1x128.size a ≤ S10x8192.size a
  inb_S10x8192_S1x128_4_2560 : ∀ a, (![4, 2560] : Fin 2 → Nat) a + S1x128.size a ≤ S10x8192.size a
  inb_S10x8192_S1x128_5_2560 : ∀ a, (![5, 2560] : Fin 2 → Nat) a + S1x128.size a ≤ S10x8192.size a
  inb_S10x8192_S1x128_6_2560 : ∀ a, (![6, 2560] : Fin 2 → Nat) a + S1x128.size a ≤ S10x8192.size a
  inb_S10x8192_S1x128_7_2560 : ∀ a, (![7, 2560] : Fin 2 → Nat) a + S1x128.size a ≤ S10x8192.size a
  inb_S10x8192_S1x128_8_2560 : ∀ a, (![8, 2560] : Fin 2 → Nat) a + S1x128.size a ≤ S10x8192.size a
  inb_S10x8192_S1x128_9_2560 : ∀ a, (![9, 2560] : Fin 2 → Nat) a + S1x128.size a ≤ S10x8192.size a
  inb_S8192x128_S128x128_2560_0 : ∀ a, (![2560, 0] : Fin 2 → Nat) a + S128x128.size a ≤ S8192x128.size a
  inb_S10x8192_S1x128_0_2688 : ∀ a, (![0, 2688] : Fin 2 → Nat) a + S1x128.size a ≤ S10x8192.size a
  inb_S10x8192_S1x128_1_2688 : ∀ a, (![1, 2688] : Fin 2 → Nat) a + S1x128.size a ≤ S10x8192.size a
  inb_S10x8192_S1x128_2_2688 : ∀ a, (![2, 2688] : Fin 2 → Nat) a + S1x128.size a ≤ S10x8192.size a
  inb_S10x8192_S1x128_3_2688 : ∀ a, (![3, 2688] : Fin 2 → Nat) a + S1x128.size a ≤ S10x8192.size a
  inb_S10x8192_S1x128_4_2688 : ∀ a, (![4, 2688] : Fin 2 → Nat) a + S1x128.size a ≤ S10x8192.size a
  inb_S10x8192_S1x128_5_2688 : ∀ a, (![5, 2688] : Fin 2 → Nat) a + S1x128.size a ≤ S10x8192.size a
  inb_S10x8192_S1x128_6_2688 : ∀ a, (![6, 2688] : Fin 2 → Nat) a + S1x128.size a ≤ S10x8192.size a
  inb_S10x8192_S1x128_7_2688 : ∀ a, (![7, 2688] : Fin 2 → Nat) a + S1x128.size a ≤ S10x8192.size a
  inb_S10x8192_S1x128_8_2688 : ∀ a, (![8, 2688] : Fin 2 → Nat) a + S1x128.size a ≤ S10x8192.size a
  inb_S10x8192_S1x128_9_2688 : ∀ a, (![9, 2688] : Fin 2 → Nat) a + S1x128.size a ≤ S10x8192.size a
  inb_S8192x128_S128x128_2688_0 : ∀ a, (![2688, 0] : Fin 2 → Nat) a + S128x128.size a ≤ S8192x128.size a
  inb_S10x8192_S1x128_0_2816 : ∀ a, (![0, 2816] : Fin 2 → Nat) a + S1x128.size a ≤ S10x8192.size a
  inb_S10x8192_S1x128_1_2816 : ∀ a, (![1, 2816] : Fin 2 → Nat) a + S1x128.size a ≤ S10x8192.size a
  inb_S10x8192_S1x128_2_2816 : ∀ a, (![2, 2816] : Fin 2 → Nat) a + S1x128.size a ≤ S10x8192.size a
  inb_S10x8192_S1x128_3_2816 : ∀ a, (![3, 2816] : Fin 2 → Nat) a + S1x128.size a ≤ S10x8192.size a
  inb_S10x8192_S1x128_4_2816 : ∀ a, (![4, 2816] : Fin 2 → Nat) a + S1x128.size a ≤ S10x8192.size a
  inb_S10x8192_S1x128_5_2816 : ∀ a, (![5, 2816] : Fin 2 → Nat) a + S1x128.size a ≤ S10x8192.size a
  inb_S10x8192_S1x128_6_2816 : ∀ a, (![6, 2816] : Fin 2 → Nat) a + S1x128.size a ≤ S10x8192.size a
  inb_S10x8192_S1x128_7_2816 : ∀ a, (![7, 2816] : Fin 2 → Nat) a + S1x128.size a ≤ S10x8192.size a
  inb_S10x8192_S1x128_8_2816 : ∀ a, (![8, 2816] : Fin 2 → Nat) a + S1x128.size a ≤ S10x8192.size a
  inb_S10x8192_S1x128_9_2816 : ∀ a, (![9, 2816] : Fin 2 → Nat) a + S1x128.size a ≤ S10x8192.size a
  inb_S8192x128_S128x128_2816_0 : ∀ a, (![2816, 0] : Fin 2 → Nat) a + S128x128.size a ≤ S8192x128.size a
  inb_S10x8192_S1x128_0_2944 : ∀ a, (![0, 2944] : Fin 2 → Nat) a + S1x128.size a ≤ S10x8192.size a
  inb_S10x8192_S1x128_1_2944 : ∀ a, (![1, 2944] : Fin 2 → Nat) a + S1x128.size a ≤ S10x8192.size a
  inb_S10x8192_S1x128_2_2944 : ∀ a, (![2, 2944] : Fin 2 → Nat) a + S1x128.size a ≤ S10x8192.size a
  inb_S10x8192_S1x128_3_2944 : ∀ a, (![3, 2944] : Fin 2 → Nat) a + S1x128.size a ≤ S10x8192.size a
  inb_S10x8192_S1x128_4_2944 : ∀ a, (![4, 2944] : Fin 2 → Nat) a + S1x128.size a ≤ S10x8192.size a
  inb_S10x8192_S1x128_5_2944 : ∀ a, (![5, 2944] : Fin 2 → Nat) a + S1x128.size a ≤ S10x8192.size a
  inb_S10x8192_S1x128_6_2944 : ∀ a, (![6, 2944] : Fin 2 → Nat) a + S1x128.size a ≤ S10x8192.size a
  inb_S10x8192_S1x128_7_2944 : ∀ a, (![7, 2944] : Fin 2 → Nat) a + S1x128.size a ≤ S10x8192.size a
  inb_S10x8192_S1x128_8_2944 : ∀ a, (![8, 2944] : Fin 2 → Nat) a + S1x128.size a ≤ S10x8192.size a
  inb_S10x8192_S1x128_9_2944 : ∀ a, (![9, 2944] : Fin 2 → Nat) a + S1x128.size a ≤ S10x8192.size a
  inb_S8192x128_S128x128_2944_0 : ∀ a, (![2944, 0] : Fin 2 → Nat) a + S128x128.size a ≤ S8192x128.size a
  inb_S10x8192_S1x128_0_3072 : ∀ a, (![0, 3072] : Fin 2 → Nat) a + S1x128.size a ≤ S10x8192.size a
  inb_S10x8192_S1x128_1_3072 : ∀ a, (![1, 3072] : Fin 2 → Nat) a + S1x128.size a ≤ S10x8192.size a
  inb_S10x8192_S1x128_2_3072 : ∀ a, (![2, 3072] : Fin 2 → Nat) a + S1x128.size a ≤ S10x8192.size a
  inb_S10x8192_S1x128_3_3072 : ∀ a, (![3, 3072] : Fin 2 → Nat) a + S1x128.size a ≤ S10x8192.size a
  inb_S10x8192_S1x128_4_3072 : ∀ a, (![4, 3072] : Fin 2 → Nat) a + S1x128.size a ≤ S10x8192.size a
  inb_S10x8192_S1x128_5_3072 : ∀ a, (![5, 3072] : Fin 2 → Nat) a + S1x128.size a ≤ S10x8192.size a
  inb_S10x8192_S1x128_6_3072 : ∀ a, (![6, 3072] : Fin 2 → Nat) a + S1x128.size a ≤ S10x8192.size a
  inb_S10x8192_S1x128_7_3072 : ∀ a, (![7, 3072] : Fin 2 → Nat) a + S1x128.size a ≤ S10x8192.size a
  inb_S10x8192_S1x128_8_3072 : ∀ a, (![8, 3072] : Fin 2 → Nat) a + S1x128.size a ≤ S10x8192.size a
  inb_S10x8192_S1x128_9_3072 : ∀ a, (![9, 3072] : Fin 2 → Nat) a + S1x128.size a ≤ S10x8192.size a
  inb_S8192x128_S128x128_3072_0 : ∀ a, (![3072, 0] : Fin 2 → Nat) a + S128x128.size a ≤ S8192x128.size a
  inb_S10x8192_S1x128_0_3200 : ∀ a, (![0, 3200] : Fin 2 → Nat) a + S1x128.size a ≤ S10x8192.size a
  inb_S10x8192_S1x128_1_3200 : ∀ a, (![1, 3200] : Fin 2 → Nat) a + S1x128.size a ≤ S10x8192.size a
  inb_S10x8192_S1x128_2_3200 : ∀ a, (![2, 3200] : Fin 2 → Nat) a + S1x128.size a ≤ S10x8192.size a
  inb_S10x8192_S1x128_3_3200 : ∀ a, (![3, 3200] : Fin 2 → Nat) a + S1x128.size a ≤ S10x8192.size a
  inb_S10x8192_S1x128_4_3200 : ∀ a, (![4, 3200] : Fin 2 → Nat) a + S1x128.size a ≤ S10x8192.size a
  inb_S10x8192_S1x128_5_3200 : ∀ a, (![5, 3200] : Fin 2 → Nat) a + S1x128.size a ≤ S10x8192.size a
  inb_S10x8192_S1x128_6_3200 : ∀ a, (![6, 3200] : Fin 2 → Nat) a + S1x128.size a ≤ S10x8192.size a
  inb_S10x8192_S1x128_7_3200 : ∀ a, (![7, 3200] : Fin 2 → Nat) a + S1x128.size a ≤ S10x8192.size a
  inb_S10x8192_S1x128_8_3200 : ∀ a, (![8, 3200] : Fin 2 → Nat) a + S1x128.size a ≤ S10x8192.size a
  inb_S10x8192_S1x128_9_3200 : ∀ a, (![9, 3200] : Fin 2 → Nat) a + S1x128.size a ≤ S10x8192.size a
  inb_S8192x128_S128x128_3200_0 : ∀ a, (![3200, 0] : Fin 2 → Nat) a + S128x128.size a ≤ S8192x128.size a
  inb_S10x8192_S1x128_0_3328 : ∀ a, (![0, 3328] : Fin 2 → Nat) a + S1x128.size a ≤ S10x8192.size a
  inb_S10x8192_S1x128_1_3328 : ∀ a, (![1, 3328] : Fin 2 → Nat) a + S1x128.size a ≤ S10x8192.size a
  inb_S10x8192_S1x128_2_3328 : ∀ a, (![2, 3328] : Fin 2 → Nat) a + S1x128.size a ≤ S10x8192.size a
  inb_S10x8192_S1x128_3_3328 : ∀ a, (![3, 3328] : Fin 2 → Nat) a + S1x128.size a ≤ S10x8192.size a
  inb_S10x8192_S1x128_4_3328 : ∀ a, (![4, 3328] : Fin 2 → Nat) a + S1x128.size a ≤ S10x8192.size a
  inb_S10x8192_S1x128_5_3328 : ∀ a, (![5, 3328] : Fin 2 → Nat) a + S1x128.size a ≤ S10x8192.size a
  inb_S10x8192_S1x128_6_3328 : ∀ a, (![6, 3328] : Fin 2 → Nat) a + S1x128.size a ≤ S10x8192.size a
  inb_S10x8192_S1x128_7_3328 : ∀ a, (![7, 3328] : Fin 2 → Nat) a + S1x128.size a ≤ S10x8192.size a
  inb_S10x8192_S1x128_8_3328 : ∀ a, (![8, 3328] : Fin 2 → Nat) a + S1x128.size a ≤ S10x8192.size a
  inb_S10x8192_S1x128_9_3328 : ∀ a, (![9, 3328] : Fin 2 → Nat) a + S1x128.size a ≤ S10x8192.size a
  inb_S8192x128_S128x128_3328_0 : ∀ a, (![3328, 0] : Fin 2 → Nat) a + S128x128.size a ≤ S8192x128.size a
  inb_S10x8192_S1x128_0_3456 : ∀ a, (![0, 3456] : Fin 2 → Nat) a + S1x128.size a ≤ S10x8192.size a
  inb_S10x8192_S1x128_1_3456 : ∀ a, (![1, 3456] : Fin 2 → Nat) a + S1x128.size a ≤ S10x8192.size a
  inb_S10x8192_S1x128_2_3456 : ∀ a, (![2, 3456] : Fin 2 → Nat) a + S1x128.size a ≤ S10x8192.size a
  inb_S10x8192_S1x128_3_3456 : ∀ a, (![3, 3456] : Fin 2 → Nat) a + S1x128.size a ≤ S10x8192.size a
  inb_S10x8192_S1x128_4_3456 : ∀ a, (![4, 3456] : Fin 2 → Nat) a + S1x128.size a ≤ S10x8192.size a
  inb_S10x8192_S1x128_5_3456 : ∀ a, (![5, 3456] : Fin 2 → Nat) a + S1x128.size a ≤ S10x8192.size a
  inb_S10x8192_S1x128_6_3456 : ∀ a, (![6, 3456] : Fin 2 → Nat) a + S1x128.size a ≤ S10x8192.size a
  inb_S10x8192_S1x128_7_3456 : ∀ a, (![7, 3456] : Fin 2 → Nat) a + S1x128.size a ≤ S10x8192.size a
  inb_S10x8192_S1x128_8_3456 : ∀ a, (![8, 3456] : Fin 2 → Nat) a + S1x128.size a ≤ S10x8192.size a
  inb_S10x8192_S1x128_9_3456 : ∀ a, (![9, 3456] : Fin 2 → Nat) a + S1x128.size a ≤ S10x8192.size a
  inb_S8192x128_S128x128_3456_0 : ∀ a, (![3456, 0] : Fin 2 → Nat) a + S128x128.size a ≤ S8192x128.size a
  inb_S10x8192_S1x128_0_3584 : ∀ a, (![0, 3584] : Fin 2 → Nat) a + S1x128.size a ≤ S10x8192.size a
  inb_S10x8192_S1x128_1_3584 : ∀ a, (![1, 3584] : Fin 2 → Nat) a + S1x128.size a ≤ S10x8192.size a
  inb_S10x8192_S1x128_2_3584 : ∀ a, (![2, 3584] : Fin 2 → Nat) a + S1x128.size a ≤ S10x8192.size a
  inb_S10x8192_S1x128_3_3584 : ∀ a, (![3, 3584] : Fin 2 → Nat) a + S1x128.size a ≤ S10x8192.size a
  inb_S10x8192_S1x128_4_3584 : ∀ a, (![4, 3584] : Fin 2 → Nat) a + S1x128.size a ≤ S10x8192.size a
  inb_S10x8192_S1x128_5_3584 : ∀ a, (![5, 3584] : Fin 2 → Nat) a + S1x128.size a ≤ S10x8192.size a
  inb_S10x8192_S1x128_6_3584 : ∀ a, (![6, 3584] : Fin 2 → Nat) a + S1x128.size a ≤ S10x8192.size a
  inb_S10x8192_S1x128_7_3584 : ∀ a, (![7, 3584] : Fin 2 → Nat) a + S1x128.size a ≤ S10x8192.size a
  inb_S10x8192_S1x128_8_3584 : ∀ a, (![8, 3584] : Fin 2 → Nat) a + S1x128.size a ≤ S10x8192.size a
  inb_S10x8192_S1x128_9_3584 : ∀ a, (![9, 3584] : Fin 2 → Nat) a + S1x128.size a ≤ S10x8192.size a
  inb_S8192x128_S128x128_3584_0 : ∀ a, (![3584, 0] : Fin 2 → Nat) a + S128x128.size a ≤ S8192x128.size a
  inb_S10x8192_S1x128_0_3712 : ∀ a, (![0, 3712] : Fin 2 → Nat) a + S1x128.size a ≤ S10x8192.size a
  inb_S10x8192_S1x128_1_3712 : ∀ a, (![1, 3712] : Fin 2 → Nat) a + S1x128.size a ≤ S10x8192.size a
  inb_S10x8192_S1x128_2_3712 : ∀ a, (![2, 3712] : Fin 2 → Nat) a + S1x128.size a ≤ S10x8192.size a
  inb_S10x8192_S1x128_3_3712 : ∀ a, (![3, 3712] : Fin 2 → Nat) a + S1x128.size a ≤ S10x8192.size a
  inb_S10x8192_S1x128_4_3712 : ∀ a, (![4, 3712] : Fin 2 → Nat) a + S1x128.size a ≤ S10x8192.size a
  inb_S10x8192_S1x128_5_3712 : ∀ a, (![5, 3712] : Fin 2 → Nat) a + S1x128.size a ≤ S10x8192.size a
  inb_S10x8192_S1x128_6_3712 : ∀ a, (![6, 3712] : Fin 2 → Nat) a + S1x128.size a ≤ S10x8192.size a
  inb_S10x8192_S1x128_7_3712 : ∀ a, (![7, 3712] : Fin 2 → Nat) a + S1x128.size a ≤ S10x8192.size a
  inb_S10x8192_S1x128_8_3712 : ∀ a, (![8, 3712] : Fin 2 → Nat) a + S1x128.size a ≤ S10x8192.size a
  inb_S10x8192_S1x128_9_3712 : ∀ a, (![9, 3712] : Fin 2 → Nat) a + S1x128.size a ≤ S10x8192.size a
  inb_S8192x128_S128x128_3712_0 : ∀ a, (![3712, 0] : Fin 2 → Nat) a + S128x128.size a ≤ S8192x128.size a
  inb_S10x8192_S1x128_0_3840 : ∀ a, (![0, 3840] : Fin 2 → Nat) a + S1x128.size a ≤ S10x8192.size a
  inb_S10x8192_S1x128_1_3840 : ∀ a, (![1, 3840] : Fin 2 → Nat) a + S1x128.size a ≤ S10x8192.size a
  inb_S10x8192_S1x128_2_3840 : ∀ a, (![2, 3840] : Fin 2 → Nat) a + S1x128.size a ≤ S10x8192.size a
  inb_S10x8192_S1x128_3_3840 : ∀ a, (![3, 3840] : Fin 2 → Nat) a + S1x128.size a ≤ S10x8192.size a
  inb_S10x8192_S1x128_4_3840 : ∀ a, (![4, 3840] : Fin 2 → Nat) a + S1x128.size a ≤ S10x8192.size a
  inb_S10x8192_S1x128_5_3840 : ∀ a, (![5, 3840] : Fin 2 → Nat) a + S1x128.size a ≤ S10x8192.size a
  inb_S10x8192_S1x128_6_3840 : ∀ a, (![6, 3840] : Fin 2 → Nat) a + S1x128.size a ≤ S10x8192.size a
  inb_S10x8192_S1x128_7_3840 : ∀ a, (![7, 3840] : Fin 2 → Nat) a + S1x128.size a ≤ S10x8192.size a
  inb_S10x8192_S1x128_8_3840 : ∀ a, (![8, 3840] : Fin 2 → Nat) a + S1x128.size a ≤ S10x8192.size a
  inb_S10x8192_S1x128_9_3840 : ∀ a, (![9, 3840] : Fin 2 → Nat) a + S1x128.size a ≤ S10x8192.size a
  inb_S8192x128_S128x128_3840_0 : ∀ a, (![3840, 0] : Fin 2 → Nat) a + S128x128.size a ≤ S8192x128.size a
  inb_S10x8192_S1x128_0_3968 : ∀ a, (![0, 3968] : Fin 2 → Nat) a + S1x128.size a ≤ S10x8192.size a
  inb_S10x8192_S1x128_1_3968 : ∀ a, (![1, 3968] : Fin 2 → Nat) a + S1x128.size a ≤ S10x8192.size a
  inb_S10x8192_S1x128_2_3968 : ∀ a, (![2, 3968] : Fin 2 → Nat) a + S1x128.size a ≤ S10x8192.size a
  inb_S10x8192_S1x128_3_3968 : ∀ a, (![3, 3968] : Fin 2 → Nat) a + S1x128.size a ≤ S10x8192.size a
  inb_S10x8192_S1x128_4_3968 : ∀ a, (![4, 3968] : Fin 2 → Nat) a + S1x128.size a ≤ S10x8192.size a
  inb_S10x8192_S1x128_5_3968 : ∀ a, (![5, 3968] : Fin 2 → Nat) a + S1x128.size a ≤ S10x8192.size a
  inb_S10x8192_S1x128_6_3968 : ∀ a, (![6, 3968] : Fin 2 → Nat) a + S1x128.size a ≤ S10x8192.size a
  inb_S10x8192_S1x128_7_3968 : ∀ a, (![7, 3968] : Fin 2 → Nat) a + S1x128.size a ≤ S10x8192.size a
  inb_S10x8192_S1x128_8_3968 : ∀ a, (![8, 3968] : Fin 2 → Nat) a + S1x128.size a ≤ S10x8192.size a
  inb_S10x8192_S1x128_9_3968 : ∀ a, (![9, 3968] : Fin 2 → Nat) a + S1x128.size a ≤ S10x8192.size a
  inb_S8192x128_S128x128_3968_0 : ∀ a, (![3968, 0] : Fin 2 → Nat) a + S128x128.size a ≤ S8192x128.size a
  inb_S10x8192_S1x128_0_4096 : ∀ a, (![0, 4096] : Fin 2 → Nat) a + S1x128.size a ≤ S10x8192.size a
  inb_S10x8192_S1x128_1_4096 : ∀ a, (![1, 4096] : Fin 2 → Nat) a + S1x128.size a ≤ S10x8192.size a
  inb_S10x8192_S1x128_2_4096 : ∀ a, (![2, 4096] : Fin 2 → Nat) a + S1x128.size a ≤ S10x8192.size a
  inb_S10x8192_S1x128_3_4096 : ∀ a, (![3, 4096] : Fin 2 → Nat) a + S1x128.size a ≤ S10x8192.size a
  inb_S10x8192_S1x128_4_4096 : ∀ a, (![4, 4096] : Fin 2 → Nat) a + S1x128.size a ≤ S10x8192.size a
  inb_S10x8192_S1x128_5_4096 : ∀ a, (![5, 4096] : Fin 2 → Nat) a + S1x128.size a ≤ S10x8192.size a
  inb_S10x8192_S1x128_6_4096 : ∀ a, (![6, 4096] : Fin 2 → Nat) a + S1x128.size a ≤ S10x8192.size a
  inb_S10x8192_S1x128_7_4096 : ∀ a, (![7, 4096] : Fin 2 → Nat) a + S1x128.size a ≤ S10x8192.size a
  inb_S10x8192_S1x128_8_4096 : ∀ a, (![8, 4096] : Fin 2 → Nat) a + S1x128.size a ≤ S10x8192.size a
  inb_S10x8192_S1x128_9_4096 : ∀ a, (![9, 4096] : Fin 2 → Nat) a + S1x128.size a ≤ S10x8192.size a
  inb_S8192x128_S128x128_4096_0 : ∀ a, (![4096, 0] : Fin 2 → Nat) a + S128x128.size a ≤ S8192x128.size a
  inb_S10x8192_S1x128_0_4224 : ∀ a, (![0, 4224] : Fin 2 → Nat) a + S1x128.size a ≤ S10x8192.size a
  inb_S10x8192_S1x128_1_4224 : ∀ a, (![1, 4224] : Fin 2 → Nat) a + S1x128.size a ≤ S10x8192.size a
  inb_S10x8192_S1x128_2_4224 : ∀ a, (![2, 4224] : Fin 2 → Nat) a + S1x128.size a ≤ S10x8192.size a
  inb_S10x8192_S1x128_3_4224 : ∀ a, (![3, 4224] : Fin 2 → Nat) a + S1x128.size a ≤ S10x8192.size a
  inb_S10x8192_S1x128_4_4224 : ∀ a, (![4, 4224] : Fin 2 → Nat) a + S1x128.size a ≤ S10x8192.size a
  inb_S10x8192_S1x128_5_4224 : ∀ a, (![5, 4224] : Fin 2 → Nat) a + S1x128.size a ≤ S10x8192.size a
  inb_S10x8192_S1x128_6_4224 : ∀ a, (![6, 4224] : Fin 2 → Nat) a + S1x128.size a ≤ S10x8192.size a
  inb_S10x8192_S1x128_7_4224 : ∀ a, (![7, 4224] : Fin 2 → Nat) a + S1x128.size a ≤ S10x8192.size a
  inb_S10x8192_S1x128_8_4224 : ∀ a, (![8, 4224] : Fin 2 → Nat) a + S1x128.size a ≤ S10x8192.size a
  inb_S10x8192_S1x128_9_4224 : ∀ a, (![9, 4224] : Fin 2 → Nat) a + S1x128.size a ≤ S10x8192.size a
  inb_S8192x128_S128x128_4224_0 : ∀ a, (![4224, 0] : Fin 2 → Nat) a + S128x128.size a ≤ S8192x128.size a
  inb_S10x8192_S1x128_0_4352 : ∀ a, (![0, 4352] : Fin 2 → Nat) a + S1x128.size a ≤ S10x8192.size a
  inb_S10x8192_S1x128_1_4352 : ∀ a, (![1, 4352] : Fin 2 → Nat) a + S1x128.size a ≤ S10x8192.size a
  inb_S10x8192_S1x128_2_4352 : ∀ a, (![2, 4352] : Fin 2 → Nat) a + S1x128.size a ≤ S10x8192.size a
  inb_S10x8192_S1x128_3_4352 : ∀ a, (![3, 4352] : Fin 2 → Nat) a + S1x128.size a ≤ S10x8192.size a
  inb_S10x8192_S1x128_4_4352 : ∀ a, (![4, 4352] : Fin 2 → Nat) a + S1x128.size a ≤ S10x8192.size a
  inb_S10x8192_S1x128_5_4352 : ∀ a, (![5, 4352] : Fin 2 → Nat) a + S1x128.size a ≤ S10x8192.size a
  inb_S10x8192_S1x128_6_4352 : ∀ a, (![6, 4352] : Fin 2 → Nat) a + S1x128.size a ≤ S10x8192.size a
  inb_S10x8192_S1x128_7_4352 : ∀ a, (![7, 4352] : Fin 2 → Nat) a + S1x128.size a ≤ S10x8192.size a
  inb_S10x8192_S1x128_8_4352 : ∀ a, (![8, 4352] : Fin 2 → Nat) a + S1x128.size a ≤ S10x8192.size a
  inb_S10x8192_S1x128_9_4352 : ∀ a, (![9, 4352] : Fin 2 → Nat) a + S1x128.size a ≤ S10x8192.size a
  inb_S8192x128_S128x128_4352_0 : ∀ a, (![4352, 0] : Fin 2 → Nat) a + S128x128.size a ≤ S8192x128.size a
  inb_S10x8192_S1x128_0_4480 : ∀ a, (![0, 4480] : Fin 2 → Nat) a + S1x128.size a ≤ S10x8192.size a
  inb_S10x8192_S1x128_1_4480 : ∀ a, (![1, 4480] : Fin 2 → Nat) a + S1x128.size a ≤ S10x8192.size a
  inb_S10x8192_S1x128_2_4480 : ∀ a, (![2, 4480] : Fin 2 → Nat) a + S1x128.size a ≤ S10x8192.size a
  inb_S10x8192_S1x128_3_4480 : ∀ a, (![3, 4480] : Fin 2 → Nat) a + S1x128.size a ≤ S10x8192.size a
  inb_S10x8192_S1x128_4_4480 : ∀ a, (![4, 4480] : Fin 2 → Nat) a + S1x128.size a ≤ S10x8192.size a
  inb_S10x8192_S1x128_5_4480 : ∀ a, (![5, 4480] : Fin 2 → Nat) a + S1x128.size a ≤ S10x8192.size a
  inb_S10x8192_S1x128_6_4480 : ∀ a, (![6, 4480] : Fin 2 → Nat) a + S1x128.size a ≤ S10x8192.size a
  inb_S10x8192_S1x128_7_4480 : ∀ a, (![7, 4480] : Fin 2 → Nat) a + S1x128.size a ≤ S10x8192.size a
  inb_S10x8192_S1x128_8_4480 : ∀ a, (![8, 4480] : Fin 2 → Nat) a + S1x128.size a ≤ S10x8192.size a
  inb_S10x8192_S1x128_9_4480 : ∀ a, (![9, 4480] : Fin 2 → Nat) a + S1x128.size a ≤ S10x8192.size a
  inb_S8192x128_S128x128_4480_0 : ∀ a, (![4480, 0] : Fin 2 → Nat) a + S128x128.size a ≤ S8192x128.size a
  inb_S10x8192_S1x128_0_4608 : ∀ a, (![0, 4608] : Fin 2 → Nat) a + S1x128.size a ≤ S10x8192.size a
  inb_S10x8192_S1x128_1_4608 : ∀ a, (![1, 4608] : Fin 2 → Nat) a + S1x128.size a ≤ S10x8192.size a
  inb_S10x8192_S1x128_2_4608 : ∀ a, (![2, 4608] : Fin 2 → Nat) a + S1x128.size a ≤ S10x8192.size a
  inb_S10x8192_S1x128_3_4608 : ∀ a, (![3, 4608] : Fin 2 → Nat) a + S1x128.size a ≤ S10x8192.size a
  inb_S10x8192_S1x128_4_4608 : ∀ a, (![4, 4608] : Fin 2 → Nat) a + S1x128.size a ≤ S10x8192.size a
  inb_S10x8192_S1x128_5_4608 : ∀ a, (![5, 4608] : Fin 2 → Nat) a + S1x128.size a ≤ S10x8192.size a
  inb_S10x8192_S1x128_6_4608 : ∀ a, (![6, 4608] : Fin 2 → Nat) a + S1x128.size a ≤ S10x8192.size a
  inb_S10x8192_S1x128_7_4608 : ∀ a, (![7, 4608] : Fin 2 → Nat) a + S1x128.size a ≤ S10x8192.size a
  inb_S10x8192_S1x128_8_4608 : ∀ a, (![8, 4608] : Fin 2 → Nat) a + S1x128.size a ≤ S10x8192.size a
  inb_S10x8192_S1x128_9_4608 : ∀ a, (![9, 4608] : Fin 2 → Nat) a + S1x128.size a ≤ S10x8192.size a
  inb_S8192x128_S128x128_4608_0 : ∀ a, (![4608, 0] : Fin 2 → Nat) a + S128x128.size a ≤ S8192x128.size a
  inb_S10x8192_S1x128_0_4736 : ∀ a, (![0, 4736] : Fin 2 → Nat) a + S1x128.size a ≤ S10x8192.size a
  inb_S10x8192_S1x128_1_4736 : ∀ a, (![1, 4736] : Fin 2 → Nat) a + S1x128.size a ≤ S10x8192.size a
  inb_S10x8192_S1x128_2_4736 : ∀ a, (![2, 4736] : Fin 2 → Nat) a + S1x128.size a ≤ S10x8192.size a
  inb_S10x8192_S1x128_3_4736 : ∀ a, (![3, 4736] : Fin 2 → Nat) a + S1x128.size a ≤ S10x8192.size a
  inb_S10x8192_S1x128_4_4736 : ∀ a, (![4, 4736] : Fin 2 → Nat) a + S1x128.size a ≤ S10x8192.size a
  inb_S10x8192_S1x128_5_4736 : ∀ a, (![5, 4736] : Fin 2 → Nat) a + S1x128.size a ≤ S10x8192.size a
  inb_S10x8192_S1x128_6_4736 : ∀ a, (![6, 4736] : Fin 2 → Nat) a + S1x128.size a ≤ S10x8192.size a
  inb_S10x8192_S1x128_7_4736 : ∀ a, (![7, 4736] : Fin 2 → Nat) a + S1x128.size a ≤ S10x8192.size a
  inb_S10x8192_S1x128_8_4736 : ∀ a, (![8, 4736] : Fin 2 → Nat) a + S1x128.size a ≤ S10x8192.size a
  inb_S10x8192_S1x128_9_4736 : ∀ a, (![9, 4736] : Fin 2 → Nat) a + S1x128.size a ≤ S10x8192.size a
  inb_S8192x128_S128x128_4736_0 : ∀ a, (![4736, 0] : Fin 2 → Nat) a + S128x128.size a ≤ S8192x128.size a
  inb_S10x8192_S1x128_0_4864 : ∀ a, (![0, 4864] : Fin 2 → Nat) a + S1x128.size a ≤ S10x8192.size a
  inb_S10x8192_S1x128_1_4864 : ∀ a, (![1, 4864] : Fin 2 → Nat) a + S1x128.size a ≤ S10x8192.size a
  inb_S10x8192_S1x128_2_4864 : ∀ a, (![2, 4864] : Fin 2 → Nat) a + S1x128.size a ≤ S10x8192.size a
  inb_S10x8192_S1x128_3_4864 : ∀ a, (![3, 4864] : Fin 2 → Nat) a + S1x128.size a ≤ S10x8192.size a
  inb_S10x8192_S1x128_4_4864 : ∀ a, (![4, 4864] : Fin 2 → Nat) a + S1x128.size a ≤ S10x8192.size a
  inb_S10x8192_S1x128_5_4864 : ∀ a, (![5, 4864] : Fin 2 → Nat) a + S1x128.size a ≤ S10x8192.size a
  inb_S10x8192_S1x128_6_4864 : ∀ a, (![6, 4864] : Fin 2 → Nat) a + S1x128.size a ≤ S10x8192.size a
  inb_S10x8192_S1x128_7_4864 : ∀ a, (![7, 4864] : Fin 2 → Nat) a + S1x128.size a ≤ S10x8192.size a
  inb_S10x8192_S1x128_8_4864 : ∀ a, (![8, 4864] : Fin 2 → Nat) a + S1x128.size a ≤ S10x8192.size a
  inb_S10x8192_S1x128_9_4864 : ∀ a, (![9, 4864] : Fin 2 → Nat) a + S1x128.size a ≤ S10x8192.size a
  inb_S8192x128_S128x128_4864_0 : ∀ a, (![4864, 0] : Fin 2 → Nat) a + S128x128.size a ≤ S8192x128.size a
  inb_S10x8192_S1x128_0_4992 : ∀ a, (![0, 4992] : Fin 2 → Nat) a + S1x128.size a ≤ S10x8192.size a
  inb_S10x8192_S1x128_1_4992 : ∀ a, (![1, 4992] : Fin 2 → Nat) a + S1x128.size a ≤ S10x8192.size a
  inb_S10x8192_S1x128_2_4992 : ∀ a, (![2, 4992] : Fin 2 → Nat) a + S1x128.size a ≤ S10x8192.size a
  inb_S10x8192_S1x128_3_4992 : ∀ a, (![3, 4992] : Fin 2 → Nat) a + S1x128.size a ≤ S10x8192.size a
  inb_S10x8192_S1x128_4_4992 : ∀ a, (![4, 4992] : Fin 2 → Nat) a + S1x128.size a ≤ S10x8192.size a
  inb_S10x8192_S1x128_5_4992 : ∀ a, (![5, 4992] : Fin 2 → Nat) a + S1x128.size a ≤ S10x8192.size a
  inb_S10x8192_S1x128_6_4992 : ∀ a, (![6, 4992] : Fin 2 → Nat) a + S1x128.size a ≤ S10x8192.size a
  inb_S10x8192_S1x128_7_4992 : ∀ a, (![7, 4992] : Fin 2 → Nat) a + S1x128.size a ≤ S10x8192.size a
  inb_S10x8192_S1x128_8_4992 : ∀ a, (![8, 4992] : Fin 2 → Nat) a + S1x128.size a ≤ S10x8192.size a
  inb_S10x8192_S1x128_9_4992 : ∀ a, (![9, 4992] : Fin 2 → Nat) a + S1x128.size a ≤ S10x8192.size a
  inb_S8192x128_S128x128_4992_0 : ∀ a, (![4992, 0] : Fin 2 → Nat) a + S128x128.size a ≤ S8192x128.size a
  inb_S10x8192_S1x128_0_5120 : ∀ a, (![0, 5120] : Fin 2 → Nat) a + S1x128.size a ≤ S10x8192.size a
  inb_S10x8192_S1x128_1_5120 : ∀ a, (![1, 5120] : Fin 2 → Nat) a + S1x128.size a ≤ S10x8192.size a
  inb_S10x8192_S1x128_2_5120 : ∀ a, (![2, 5120] : Fin 2 → Nat) a + S1x128.size a ≤ S10x8192.size a
  inb_S10x8192_S1x128_3_5120 : ∀ a, (![3, 5120] : Fin 2 → Nat) a + S1x128.size a ≤ S10x8192.size a
  inb_S10x8192_S1x128_4_5120 : ∀ a, (![4, 5120] : Fin 2 → Nat) a + S1x128.size a ≤ S10x8192.size a
  inb_S10x8192_S1x128_5_5120 : ∀ a, (![5, 5120] : Fin 2 → Nat) a + S1x128.size a ≤ S10x8192.size a
  inb_S10x8192_S1x128_6_5120 : ∀ a, (![6, 5120] : Fin 2 → Nat) a + S1x128.size a ≤ S10x8192.size a
  inb_S10x8192_S1x128_7_5120 : ∀ a, (![7, 5120] : Fin 2 → Nat) a + S1x128.size a ≤ S10x8192.size a
  inb_S10x8192_S1x128_8_5120 : ∀ a, (![8, 5120] : Fin 2 → Nat) a + S1x128.size a ≤ S10x8192.size a
  inb_S10x8192_S1x128_9_5120 : ∀ a, (![9, 5120] : Fin 2 → Nat) a + S1x128.size a ≤ S10x8192.size a
  inb_S8192x128_S128x128_5120_0 : ∀ a, (![5120, 0] : Fin 2 → Nat) a + S128x128.size a ≤ S8192x128.size a
  inb_S10x8192_S1x128_0_5248 : ∀ a, (![0, 5248] : Fin 2 → Nat) a + S1x128.size a ≤ S10x8192.size a
  inb_S10x8192_S1x128_1_5248 : ∀ a, (![1, 5248] : Fin 2 → Nat) a + S1x128.size a ≤ S10x8192.size a
  inb_S10x8192_S1x128_2_5248 : ∀ a, (![2, 5248] : Fin 2 → Nat) a + S1x128.size a ≤ S10x8192.size a
  inb_S10x8192_S1x128_3_5248 : ∀ a, (![3, 5248] : Fin 2 → Nat) a + S1x128.size a ≤ S10x8192.size a
  inb_S10x8192_S1x128_4_5248 : ∀ a, (![4, 5248] : Fin 2 → Nat) a + S1x128.size a ≤ S10x8192.size a
  inb_S10x8192_S1x128_5_5248 : ∀ a, (![5, 5248] : Fin 2 → Nat) a + S1x128.size a ≤ S10x8192.size a
  inb_S10x8192_S1x128_6_5248 : ∀ a, (![6, 5248] : Fin 2 → Nat) a + S1x128.size a ≤ S10x8192.size a
  inb_S10x8192_S1x128_7_5248 : ∀ a, (![7, 5248] : Fin 2 → Nat) a + S1x128.size a ≤ S10x8192.size a
  inb_S10x8192_S1x128_8_5248 : ∀ a, (![8, 5248] : Fin 2 → Nat) a + S1x128.size a ≤ S10x8192.size a
  inb_S10x8192_S1x128_9_5248 : ∀ a, (![9, 5248] : Fin 2 → Nat) a + S1x128.size a ≤ S10x8192.size a
  inb_S8192x128_S128x128_5248_0 : ∀ a, (![5248, 0] : Fin 2 → Nat) a + S128x128.size a ≤ S8192x128.size a
  inb_S10x8192_S1x128_0_5376 : ∀ a, (![0, 5376] : Fin 2 → Nat) a + S1x128.size a ≤ S10x8192.size a
  inb_S10x8192_S1x128_1_5376 : ∀ a, (![1, 5376] : Fin 2 → Nat) a + S1x128.size a ≤ S10x8192.size a
  inb_S10x8192_S1x128_2_5376 : ∀ a, (![2, 5376] : Fin 2 → Nat) a + S1x128.size a ≤ S10x8192.size a
  inb_S10x8192_S1x128_3_5376 : ∀ a, (![3, 5376] : Fin 2 → Nat) a + S1x128.size a ≤ S10x8192.size a
  inb_S10x8192_S1x128_4_5376 : ∀ a, (![4, 5376] : Fin 2 → Nat) a + S1x128.size a ≤ S10x8192.size a
  inb_S10x8192_S1x128_5_5376 : ∀ a, (![5, 5376] : Fin 2 → Nat) a + S1x128.size a ≤ S10x8192.size a
  inb_S10x8192_S1x128_6_5376 : ∀ a, (![6, 5376] : Fin 2 → Nat) a + S1x128.size a ≤ S10x8192.size a
  inb_S10x8192_S1x128_7_5376 : ∀ a, (![7, 5376] : Fin 2 → Nat) a + S1x128.size a ≤ S10x8192.size a
  inb_S10x8192_S1x128_8_5376 : ∀ a, (![8, 5376] : Fin 2 → Nat) a + S1x128.size a ≤ S10x8192.size a
  inb_S10x8192_S1x128_9_5376 : ∀ a, (![9, 5376] : Fin 2 → Nat) a + S1x128.size a ≤ S10x8192.size a
  inb_S8192x128_S128x128_5376_0 : ∀ a, (![5376, 0] : Fin 2 → Nat) a + S128x128.size a ≤ S8192x128.size a
  inb_S10x8192_S1x128_0_5504 : ∀ a, (![0, 5504] : Fin 2 → Nat) a + S1x128.size a ≤ S10x8192.size a
  inb_S10x8192_S1x128_1_5504 : ∀ a, (![1, 5504] : Fin 2 → Nat) a + S1x128.size a ≤ S10x8192.size a
  inb_S10x8192_S1x128_2_5504 : ∀ a, (![2, 5504] : Fin 2 → Nat) a + S1x128.size a ≤ S10x8192.size a
  inb_S10x8192_S1x128_3_5504 : ∀ a, (![3, 5504] : Fin 2 → Nat) a + S1x128.size a ≤ S10x8192.size a
  inb_S10x8192_S1x128_4_5504 : ∀ a, (![4, 5504] : Fin 2 → Nat) a + S1x128.size a ≤ S10x8192.size a
  inb_S10x8192_S1x128_5_5504 : ∀ a, (![5, 5504] : Fin 2 → Nat) a + S1x128.size a ≤ S10x8192.size a
  inb_S10x8192_S1x128_6_5504 : ∀ a, (![6, 5504] : Fin 2 → Nat) a + S1x128.size a ≤ S10x8192.size a
  inb_S10x8192_S1x128_7_5504 : ∀ a, (![7, 5504] : Fin 2 → Nat) a + S1x128.size a ≤ S10x8192.size a
  inb_S10x8192_S1x128_8_5504 : ∀ a, (![8, 5504] : Fin 2 → Nat) a + S1x128.size a ≤ S10x8192.size a
  inb_S10x8192_S1x128_9_5504 : ∀ a, (![9, 5504] : Fin 2 → Nat) a + S1x128.size a ≤ S10x8192.size a
  inb_S8192x128_S128x128_5504_0 : ∀ a, (![5504, 0] : Fin 2 → Nat) a + S128x128.size a ≤ S8192x128.size a
  inb_S10x8192_S1x128_0_5632 : ∀ a, (![0, 5632] : Fin 2 → Nat) a + S1x128.size a ≤ S10x8192.size a
  inb_S10x8192_S1x128_1_5632 : ∀ a, (![1, 5632] : Fin 2 → Nat) a + S1x128.size a ≤ S10x8192.size a
  inb_S10x8192_S1x128_2_5632 : ∀ a, (![2, 5632] : Fin 2 → Nat) a + S1x128.size a ≤ S10x8192.size a
  inb_S10x8192_S1x128_3_5632 : ∀ a, (![3, 5632] : Fin 2 → Nat) a + S1x128.size a ≤ S10x8192.size a
  inb_S10x8192_S1x128_4_5632 : ∀ a, (![4, 5632] : Fin 2 → Nat) a + S1x128.size a ≤ S10x8192.size a
  inb_S10x8192_S1x128_5_5632 : ∀ a, (![5, 5632] : Fin 2 → Nat) a + S1x128.size a ≤ S10x8192.size a
  inb_S10x8192_S1x128_6_5632 : ∀ a, (![6, 5632] : Fin 2 → Nat) a + S1x128.size a ≤ S10x8192.size a
  inb_S10x8192_S1x128_7_5632 : ∀ a, (![7, 5632] : Fin 2 → Nat) a + S1x128.size a ≤ S10x8192.size a
  inb_S10x8192_S1x128_8_5632 : ∀ a, (![8, 5632] : Fin 2 → Nat) a + S1x128.size a ≤ S10x8192.size a
  inb_S10x8192_S1x128_9_5632 : ∀ a, (![9, 5632] : Fin 2 → Nat) a + S1x128.size a ≤ S10x8192.size a
  inb_S8192x128_S128x128_5632_0 : ∀ a, (![5632, 0] : Fin 2 → Nat) a + S128x128.size a ≤ S8192x128.size a
  inb_S10x8192_S1x128_0_5760 : ∀ a, (![0, 5760] : Fin 2 → Nat) a + S1x128.size a ≤ S10x8192.size a
  inb_S10x8192_S1x128_1_5760 : ∀ a, (![1, 5760] : Fin 2 → Nat) a + S1x128.size a ≤ S10x8192.size a
  inb_S10x8192_S1x128_2_5760 : ∀ a, (![2, 5760] : Fin 2 → Nat) a + S1x128.size a ≤ S10x8192.size a
  inb_S10x8192_S1x128_3_5760 : ∀ a, (![3, 5760] : Fin 2 → Nat) a + S1x128.size a ≤ S10x8192.size a
  inb_S10x8192_S1x128_4_5760 : ∀ a, (![4, 5760] : Fin 2 → Nat) a + S1x128.size a ≤ S10x8192.size a
  inb_S10x8192_S1x128_5_5760 : ∀ a, (![5, 5760] : Fin 2 → Nat) a + S1x128.size a ≤ S10x8192.size a
  inb_S10x8192_S1x128_6_5760 : ∀ a, (![6, 5760] : Fin 2 → Nat) a + S1x128.size a ≤ S10x8192.size a
  inb_S10x8192_S1x128_7_5760 : ∀ a, (![7, 5760] : Fin 2 → Nat) a + S1x128.size a ≤ S10x8192.size a
  inb_S10x8192_S1x128_8_5760 : ∀ a, (![8, 5760] : Fin 2 → Nat) a + S1x128.size a ≤ S10x8192.size a
  inb_S10x8192_S1x128_9_5760 : ∀ a, (![9, 5760] : Fin 2 → Nat) a + S1x128.size a ≤ S10x8192.size a
  inb_S8192x128_S128x128_5760_0 : ∀ a, (![5760, 0] : Fin 2 → Nat) a + S128x128.size a ≤ S8192x128.size a
  inb_S10x8192_S1x128_0_5888 : ∀ a, (![0, 5888] : Fin 2 → Nat) a + S1x128.size a ≤ S10x8192.size a
  inb_S10x8192_S1x128_1_5888 : ∀ a, (![1, 5888] : Fin 2 → Nat) a + S1x128.size a ≤ S10x8192.size a
  inb_S10x8192_S1x128_2_5888 : ∀ a, (![2, 5888] : Fin 2 → Nat) a + S1x128.size a ≤ S10x8192.size a
  inb_S10x8192_S1x128_3_5888 : ∀ a, (![3, 5888] : Fin 2 → Nat) a + S1x128.size a ≤ S10x8192.size a
  inb_S10x8192_S1x128_4_5888 : ∀ a, (![4, 5888] : Fin 2 → Nat) a + S1x128.size a ≤ S10x8192.size a
  inb_S10x8192_S1x128_5_5888 : ∀ a, (![5, 5888] : Fin 2 → Nat) a + S1x128.size a ≤ S10x8192.size a
  inb_S10x8192_S1x128_6_5888 : ∀ a, (![6, 5888] : Fin 2 → Nat) a + S1x128.size a ≤ S10x8192.size a
  inb_S10x8192_S1x128_7_5888 : ∀ a, (![7, 5888] : Fin 2 → Nat) a + S1x128.size a ≤ S10x8192.size a
  inb_S10x8192_S1x128_8_5888 : ∀ a, (![8, 5888] : Fin 2 → Nat) a + S1x128.size a ≤ S10x8192.size a
  inb_S10x8192_S1x128_9_5888 : ∀ a, (![9, 5888] : Fin 2 → Nat) a + S1x128.size a ≤ S10x8192.size a
  inb_S8192x128_S128x128_5888_0 : ∀ a, (![5888, 0] : Fin 2 → Nat) a + S128x128.size a ≤ S8192x128.size a
  inb_S10x8192_S1x128_0_6016 : ∀ a, (![0, 6016] : Fin 2 → Nat) a + S1x128.size a ≤ S10x8192.size a
  inb_S10x8192_S1x128_1_6016 : ∀ a, (![1, 6016] : Fin 2 → Nat) a + S1x128.size a ≤ S10x8192.size a
  inb_S10x8192_S1x128_2_6016 : ∀ a, (![2, 6016] : Fin 2 → Nat) a + S1x128.size a ≤ S10x8192.size a
  inb_S10x8192_S1x128_3_6016 : ∀ a, (![3, 6016] : Fin 2 → Nat) a + S1x128.size a ≤ S10x8192.size a
  inb_S10x8192_S1x128_4_6016 : ∀ a, (![4, 6016] : Fin 2 → Nat) a + S1x128.size a ≤ S10x8192.size a
  inb_S10x8192_S1x128_5_6016 : ∀ a, (![5, 6016] : Fin 2 → Nat) a + S1x128.size a ≤ S10x8192.size a
  inb_S10x8192_S1x128_6_6016 : ∀ a, (![6, 6016] : Fin 2 → Nat) a + S1x128.size a ≤ S10x8192.size a
  inb_S10x8192_S1x128_7_6016 : ∀ a, (![7, 6016] : Fin 2 → Nat) a + S1x128.size a ≤ S10x8192.size a
  inb_S10x8192_S1x128_8_6016 : ∀ a, (![8, 6016] : Fin 2 → Nat) a + S1x128.size a ≤ S10x8192.size a
  inb_S10x8192_S1x128_9_6016 : ∀ a, (![9, 6016] : Fin 2 → Nat) a + S1x128.size a ≤ S10x8192.size a
  inb_S8192x128_S128x128_6016_0 : ∀ a, (![6016, 0] : Fin 2 → Nat) a + S128x128.size a ≤ S8192x128.size a
  inb_S10x8192_S1x128_0_6144 : ∀ a, (![0, 6144] : Fin 2 → Nat) a + S1x128.size a ≤ S10x8192.size a
  inb_S10x8192_S1x128_1_6144 : ∀ a, (![1, 6144] : Fin 2 → Nat) a + S1x128.size a ≤ S10x8192.size a
  inb_S10x8192_S1x128_2_6144 : ∀ a, (![2, 6144] : Fin 2 → Nat) a + S1x128.size a ≤ S10x8192.size a
  inb_S10x8192_S1x128_3_6144 : ∀ a, (![3, 6144] : Fin 2 → Nat) a + S1x128.size a ≤ S10x8192.size a
  inb_S10x8192_S1x128_4_6144 : ∀ a, (![4, 6144] : Fin 2 → Nat) a + S1x128.size a ≤ S10x8192.size a
  inb_S10x8192_S1x128_5_6144 : ∀ a, (![5, 6144] : Fin 2 → Nat) a + S1x128.size a ≤ S10x8192.size a
  inb_S10x8192_S1x128_6_6144 : ∀ a, (![6, 6144] : Fin 2 → Nat) a + S1x128.size a ≤ S10x8192.size a
  inb_S10x8192_S1x128_7_6144 : ∀ a, (![7, 6144] : Fin 2 → Nat) a + S1x128.size a ≤ S10x8192.size a
  inb_S10x8192_S1x128_8_6144 : ∀ a, (![8, 6144] : Fin 2 → Nat) a + S1x128.size a ≤ S10x8192.size a
  inb_S10x8192_S1x128_9_6144 : ∀ a, (![9, 6144] : Fin 2 → Nat) a + S1x128.size a ≤ S10x8192.size a
  inb_S8192x128_S128x128_6144_0 : ∀ a, (![6144, 0] : Fin 2 → Nat) a + S128x128.size a ≤ S8192x128.size a
  inb_S10x8192_S1x128_0_6272 : ∀ a, (![0, 6272] : Fin 2 → Nat) a + S1x128.size a ≤ S10x8192.size a
  inb_S10x8192_S1x128_1_6272 : ∀ a, (![1, 6272] : Fin 2 → Nat) a + S1x128.size a ≤ S10x8192.size a
  inb_S10x8192_S1x128_2_6272 : ∀ a, (![2, 6272] : Fin 2 → Nat) a + S1x128.size a ≤ S10x8192.size a
  inb_S10x8192_S1x128_3_6272 : ∀ a, (![3, 6272] : Fin 2 → Nat) a + S1x128.size a ≤ S10x8192.size a
  inb_S10x8192_S1x128_4_6272 : ∀ a, (![4, 6272] : Fin 2 → Nat) a + S1x128.size a ≤ S10x8192.size a
  inb_S10x8192_S1x128_5_6272 : ∀ a, (![5, 6272] : Fin 2 → Nat) a + S1x128.size a ≤ S10x8192.size a
  inb_S10x8192_S1x128_6_6272 : ∀ a, (![6, 6272] : Fin 2 → Nat) a + S1x128.size a ≤ S10x8192.size a
  inb_S10x8192_S1x128_7_6272 : ∀ a, (![7, 6272] : Fin 2 → Nat) a + S1x128.size a ≤ S10x8192.size a
  inb_S10x8192_S1x128_8_6272 : ∀ a, (![8, 6272] : Fin 2 → Nat) a + S1x128.size a ≤ S10x8192.size a
  inb_S10x8192_S1x128_9_6272 : ∀ a, (![9, 6272] : Fin 2 → Nat) a + S1x128.size a ≤ S10x8192.size a
  inb_S8192x128_S128x128_6272_0 : ∀ a, (![6272, 0] : Fin 2 → Nat) a + S128x128.size a ≤ S8192x128.size a
  inb_S10x8192_S1x128_0_6400 : ∀ a, (![0, 6400] : Fin 2 → Nat) a + S1x128.size a ≤ S10x8192.size a
  inb_S10x8192_S1x128_1_6400 : ∀ a, (![1, 6400] : Fin 2 → Nat) a + S1x128.size a ≤ S10x8192.size a
  inb_S10x8192_S1x128_2_6400 : ∀ a, (![2, 6400] : Fin 2 → Nat) a + S1x128.size a ≤ S10x8192.size a
  inb_S10x8192_S1x128_3_6400 : ∀ a, (![3, 6400] : Fin 2 → Nat) a + S1x128.size a ≤ S10x8192.size a
  inb_S10x8192_S1x128_4_6400 : ∀ a, (![4, 6400] : Fin 2 → Nat) a + S1x128.size a ≤ S10x8192.size a
  inb_S10x8192_S1x128_5_6400 : ∀ a, (![5, 6400] : Fin 2 → Nat) a + S1x128.size a ≤ S10x8192.size a
  inb_S10x8192_S1x128_6_6400 : ∀ a, (![6, 6400] : Fin 2 → Nat) a + S1x128.size a ≤ S10x8192.size a
  inb_S10x8192_S1x128_7_6400 : ∀ a, (![7, 6400] : Fin 2 → Nat) a + S1x128.size a ≤ S10x8192.size a
  inb_S10x8192_S1x128_8_6400 : ∀ a, (![8, 6400] : Fin 2 → Nat) a + S1x128.size a ≤ S10x8192.size a
  inb_S10x8192_S1x128_9_6400 : ∀ a, (![9, 6400] : Fin 2 → Nat) a + S1x128.size a ≤ S10x8192.size a
  inb_S8192x128_S128x128_6400_0 : ∀ a, (![6400, 0] : Fin 2 → Nat) a + S128x128.size a ≤ S8192x128.size a
  inb_S10x8192_S1x128_0_6528 : ∀ a, (![0, 6528] : Fin 2 → Nat) a + S1x128.size a ≤ S10x8192.size a
  inb_S10x8192_S1x128_1_6528 : ∀ a, (![1, 6528] : Fin 2 → Nat) a + S1x128.size a ≤ S10x8192.size a
  inb_S10x8192_S1x128_2_6528 : ∀ a, (![2, 6528] : Fin 2 → Nat) a + S1x128.size a ≤ S10x8192.size a
  inb_S10x8192_S1x128_3_6528 : ∀ a, (![3, 6528] : Fin 2 → Nat) a + S1x128.size a ≤ S10x8192.size a
  inb_S10x8192_S1x128_4_6528 : ∀ a, (![4, 6528] : Fin 2 → Nat) a + S1x128.size a ≤ S10x8192.size a
  inb_S10x8192_S1x128_5_6528 : ∀ a, (![5, 6528] : Fin 2 → Nat) a + S1x128.size a ≤ S10x8192.size a
  inb_S10x8192_S1x128_6_6528 : ∀ a, (![6, 6528] : Fin 2 → Nat) a + S1x128.size a ≤ S10x8192.size a
  inb_S10x8192_S1x128_7_6528 : ∀ a, (![7, 6528] : Fin 2 → Nat) a + S1x128.size a ≤ S10x8192.size a
  inb_S10x8192_S1x128_8_6528 : ∀ a, (![8, 6528] : Fin 2 → Nat) a + S1x128.size a ≤ S10x8192.size a
  inb_S10x8192_S1x128_9_6528 : ∀ a, (![9, 6528] : Fin 2 → Nat) a + S1x128.size a ≤ S10x8192.size a
  inb_S8192x128_S128x128_6528_0 : ∀ a, (![6528, 0] : Fin 2 → Nat) a + S128x128.size a ≤ S8192x128.size a
  inb_S10x8192_S1x128_0_6656 : ∀ a, (![0, 6656] : Fin 2 → Nat) a + S1x128.size a ≤ S10x8192.size a
  inb_S10x8192_S1x128_1_6656 : ∀ a, (![1, 6656] : Fin 2 → Nat) a + S1x128.size a ≤ S10x8192.size a
  inb_S10x8192_S1x128_2_6656 : ∀ a, (![2, 6656] : Fin 2 → Nat) a + S1x128.size a ≤ S10x8192.size a
  inb_S10x8192_S1x128_3_6656 : ∀ a, (![3, 6656] : Fin 2 → Nat) a + S1x128.size a ≤ S10x8192.size a
  inb_S10x8192_S1x128_4_6656 : ∀ a, (![4, 6656] : Fin 2 → Nat) a + S1x128.size a ≤ S10x8192.size a
  inb_S10x8192_S1x128_5_6656 : ∀ a, (![5, 6656] : Fin 2 → Nat) a + S1x128.size a ≤ S10x8192.size a
  inb_S10x8192_S1x128_6_6656 : ∀ a, (![6, 6656] : Fin 2 → Nat) a + S1x128.size a ≤ S10x8192.size a
  inb_S10x8192_S1x128_7_6656 : ∀ a, (![7, 6656] : Fin 2 → Nat) a + S1x128.size a ≤ S10x8192.size a
  inb_S10x8192_S1x128_8_6656 : ∀ a, (![8, 6656] : Fin 2 → Nat) a + S1x128.size a ≤ S10x8192.size a
  inb_S10x8192_S1x128_9_6656 : ∀ a, (![9, 6656] : Fin 2 → Nat) a + S1x128.size a ≤ S10x8192.size a
  inb_S8192x128_S128x128_6656_0 : ∀ a, (![6656, 0] : Fin 2 → Nat) a + S128x128.size a ≤ S8192x128.size a
  inb_S10x8192_S1x128_0_6784 : ∀ a, (![0, 6784] : Fin 2 → Nat) a + S1x128.size a ≤ S10x8192.size a
  inb_S10x8192_S1x128_1_6784 : ∀ a, (![1, 6784] : Fin 2 → Nat) a + S1x128.size a ≤ S10x8192.size a
  inb_S10x8192_S1x128_2_6784 : ∀ a, (![2, 6784] : Fin 2 → Nat) a + S1x128.size a ≤ S10x8192.size a
  inb_S10x8192_S1x128_3_6784 : ∀ a, (![3, 6784] : Fin 2 → Nat) a + S1x128.size a ≤ S10x8192.size a
  inb_S10x8192_S1x128_4_6784 : ∀ a, (![4, 6784] : Fin 2 → Nat) a + S1x128.size a ≤ S10x8192.size a
  inb_S10x8192_S1x128_5_6784 : ∀ a, (![5, 6784] : Fin 2 → Nat) a + S1x128.size a ≤ S10x8192.size a
  inb_S10x8192_S1x128_6_6784 : ∀ a, (![6, 6784] : Fin 2 → Nat) a + S1x128.size a ≤ S10x8192.size a
  inb_S10x8192_S1x128_7_6784 : ∀ a, (![7, 6784] : Fin 2 → Nat) a + S1x128.size a ≤ S10x8192.size a
  inb_S10x8192_S1x128_8_6784 : ∀ a, (![8, 6784] : Fin 2 → Nat) a + S1x128.size a ≤ S10x8192.size a
  inb_S10x8192_S1x128_9_6784 : ∀ a, (![9, 6784] : Fin 2 → Nat) a + S1x128.size a ≤ S10x8192.size a
  inb_S8192x128_S128x128_6784_0 : ∀ a, (![6784, 0] : Fin 2 → Nat) a + S128x128.size a ≤ S8192x128.size a
  inb_S10x8192_S1x128_0_6912 : ∀ a, (![0, 6912] : Fin 2 → Nat) a + S1x128.size a ≤ S10x8192.size a
  inb_S10x8192_S1x128_1_6912 : ∀ a, (![1, 6912] : Fin 2 → Nat) a + S1x128.size a ≤ S10x8192.size a
  inb_S10x8192_S1x128_2_6912 : ∀ a, (![2, 6912] : Fin 2 → Nat) a + S1x128.size a ≤ S10x8192.size a
  inb_S10x8192_S1x128_3_6912 : ∀ a, (![3, 6912] : Fin 2 → Nat) a + S1x128.size a ≤ S10x8192.size a
  inb_S10x8192_S1x128_4_6912 : ∀ a, (![4, 6912] : Fin 2 → Nat) a + S1x128.size a ≤ S10x8192.size a
  inb_S10x8192_S1x128_5_6912 : ∀ a, (![5, 6912] : Fin 2 → Nat) a + S1x128.size a ≤ S10x8192.size a
  inb_S10x8192_S1x128_6_6912 : ∀ a, (![6, 6912] : Fin 2 → Nat) a + S1x128.size a ≤ S10x8192.size a
  inb_S10x8192_S1x128_7_6912 : ∀ a, (![7, 6912] : Fin 2 → Nat) a + S1x128.size a ≤ S10x8192.size a
  inb_S10x8192_S1x128_8_6912 : ∀ a, (![8, 6912] : Fin 2 → Nat) a + S1x128.size a ≤ S10x8192.size a
  inb_S10x8192_S1x128_9_6912 : ∀ a, (![9, 6912] : Fin 2 → Nat) a + S1x128.size a ≤ S10x8192.size a
  inb_S8192x128_S128x128_6912_0 : ∀ a, (![6912, 0] : Fin 2 → Nat) a + S128x128.size a ≤ S8192x128.size a
  inb_S10x8192_S1x128_0_7040 : ∀ a, (![0, 7040] : Fin 2 → Nat) a + S1x128.size a ≤ S10x8192.size a
  inb_S10x8192_S1x128_1_7040 : ∀ a, (![1, 7040] : Fin 2 → Nat) a + S1x128.size a ≤ S10x8192.size a
  inb_S10x8192_S1x128_2_7040 : ∀ a, (![2, 7040] : Fin 2 → Nat) a + S1x128.size a ≤ S10x8192.size a
  inb_S10x8192_S1x128_3_7040 : ∀ a, (![3, 7040] : Fin 2 → Nat) a + S1x128.size a ≤ S10x8192.size a
  inb_S10x8192_S1x128_4_7040 : ∀ a, (![4, 7040] : Fin 2 → Nat) a + S1x128.size a ≤ S10x8192.size a
  inb_S10x8192_S1x128_5_7040 : ∀ a, (![5, 7040] : Fin 2 → Nat) a + S1x128.size a ≤ S10x8192.size a
  inb_S10x8192_S1x128_6_7040 : ∀ a, (![6, 7040] : Fin 2 → Nat) a + S1x128.size a ≤ S10x8192.size a
  inb_S10x8192_S1x128_7_7040 : ∀ a, (![7, 7040] : Fin 2 → Nat) a + S1x128.size a ≤ S10x8192.size a
  inb_S10x8192_S1x128_8_7040 : ∀ a, (![8, 7040] : Fin 2 → Nat) a + S1x128.size a ≤ S10x8192.size a
  inb_S10x8192_S1x128_9_7040 : ∀ a, (![9, 7040] : Fin 2 → Nat) a + S1x128.size a ≤ S10x8192.size a
  inb_S8192x128_S128x128_7040_0 : ∀ a, (![7040, 0] : Fin 2 → Nat) a + S128x128.size a ≤ S8192x128.size a
  inb_S10x8192_S1x128_0_7168 : ∀ a, (![0, 7168] : Fin 2 → Nat) a + S1x128.size a ≤ S10x8192.size a
  inb_S10x8192_S1x128_1_7168 : ∀ a, (![1, 7168] : Fin 2 → Nat) a + S1x128.size a ≤ S10x8192.size a
  inb_S10x8192_S1x128_2_7168 : ∀ a, (![2, 7168] : Fin 2 → Nat) a + S1x128.size a ≤ S10x8192.size a
  inb_S10x8192_S1x128_3_7168 : ∀ a, (![3, 7168] : Fin 2 → Nat) a + S1x128.size a ≤ S10x8192.size a
  inb_S10x8192_S1x128_4_7168 : ∀ a, (![4, 7168] : Fin 2 → Nat) a + S1x128.size a ≤ S10x8192.size a
  inb_S10x8192_S1x128_5_7168 : ∀ a, (![5, 7168] : Fin 2 → Nat) a + S1x128.size a ≤ S10x8192.size a
  inb_S10x8192_S1x128_6_7168 : ∀ a, (![6, 7168] : Fin 2 → Nat) a + S1x128.size a ≤ S10x8192.size a
  inb_S10x8192_S1x128_7_7168 : ∀ a, (![7, 7168] : Fin 2 → Nat) a + S1x128.size a ≤ S10x8192.size a
  inb_S10x8192_S1x128_8_7168 : ∀ a, (![8, 7168] : Fin 2 → Nat) a + S1x128.size a ≤ S10x8192.size a
  inb_S10x8192_S1x128_9_7168 : ∀ a, (![9, 7168] : Fin 2 → Nat) a + S1x128.size a ≤ S10x8192.size a
  inb_S8192x128_S128x128_7168_0 : ∀ a, (![7168, 0] : Fin 2 → Nat) a + S128x128.size a ≤ S8192x128.size a
  inb_S10x8192_S1x128_0_7296 : ∀ a, (![0, 7296] : Fin 2 → Nat) a + S1x128.size a ≤ S10x8192.size a
  inb_S10x8192_S1x128_1_7296 : ∀ a, (![1, 7296] : Fin 2 → Nat) a + S1x128.size a ≤ S10x8192.size a
  inb_S10x8192_S1x128_2_7296 : ∀ a, (![2, 7296] : Fin 2 → Nat) a + S1x128.size a ≤ S10x8192.size a
  inb_S10x8192_S1x128_3_7296 : ∀ a, (![3, 7296] : Fin 2 → Nat) a + S1x128.size a ≤ S10x8192.size a
  inb_S10x8192_S1x128_4_7296 : ∀ a, (![4, 7296] : Fin 2 → Nat) a + S1x128.size a ≤ S10x8192.size a
  inb_S10x8192_S1x128_5_7296 : ∀ a, (![5, 7296] : Fin 2 → Nat) a + S1x128.size a ≤ S10x8192.size a
  inb_S10x8192_S1x128_6_7296 : ∀ a, (![6, 7296] : Fin 2 → Nat) a + S1x128.size a ≤ S10x8192.size a
  inb_S10x8192_S1x128_7_7296 : ∀ a, (![7, 7296] : Fin 2 → Nat) a + S1x128.size a ≤ S10x8192.size a
  inb_S10x8192_S1x128_8_7296 : ∀ a, (![8, 7296] : Fin 2 → Nat) a + S1x128.size a ≤ S10x8192.size a
  inb_S10x8192_S1x128_9_7296 : ∀ a, (![9, 7296] : Fin 2 → Nat) a + S1x128.size a ≤ S10x8192.size a
  inb_S8192x128_S128x128_7296_0 : ∀ a, (![7296, 0] : Fin 2 → Nat) a + S128x128.size a ≤ S8192x128.size a
  inb_S10x8192_S1x128_0_7424 : ∀ a, (![0, 7424] : Fin 2 → Nat) a + S1x128.size a ≤ S10x8192.size a
  inb_S10x8192_S1x128_1_7424 : ∀ a, (![1, 7424] : Fin 2 → Nat) a + S1x128.size a ≤ S10x8192.size a
  inb_S10x8192_S1x128_2_7424 : ∀ a, (![2, 7424] : Fin 2 → Nat) a + S1x128.size a ≤ S10x8192.size a
  inb_S10x8192_S1x128_3_7424 : ∀ a, (![3, 7424] : Fin 2 → Nat) a + S1x128.size a ≤ S10x8192.size a
  inb_S10x8192_S1x128_4_7424 : ∀ a, (![4, 7424] : Fin 2 → Nat) a + S1x128.size a ≤ S10x8192.size a
  inb_S10x8192_S1x128_5_7424 : ∀ a, (![5, 7424] : Fin 2 → Nat) a + S1x128.size a ≤ S10x8192.size a
  inb_S10x8192_S1x128_6_7424 : ∀ a, (![6, 7424] : Fin 2 → Nat) a + S1x128.size a ≤ S10x8192.size a
  inb_S10x8192_S1x128_7_7424 : ∀ a, (![7, 7424] : Fin 2 → Nat) a + S1x128.size a ≤ S10x8192.size a
  inb_S10x8192_S1x128_8_7424 : ∀ a, (![8, 7424] : Fin 2 → Nat) a + S1x128.size a ≤ S10x8192.size a
  inb_S10x8192_S1x128_9_7424 : ∀ a, (![9, 7424] : Fin 2 → Nat) a + S1x128.size a ≤ S10x8192.size a
  inb_S8192x128_S128x128_7424_0 : ∀ a, (![7424, 0] : Fin 2 → Nat) a + S128x128.size a ≤ S8192x128.size a
  inb_S10x8192_S1x128_0_7552 : ∀ a, (![0, 7552] : Fin 2 → Nat) a + S1x128.size a ≤ S10x8192.size a
  inb_S10x8192_S1x128_1_7552 : ∀ a, (![1, 7552] : Fin 2 → Nat) a + S1x128.size a ≤ S10x8192.size a
  inb_S10x8192_S1x128_2_7552 : ∀ a, (![2, 7552] : Fin 2 → Nat) a + S1x128.size a ≤ S10x8192.size a
  inb_S10x8192_S1x128_3_7552 : ∀ a, (![3, 7552] : Fin 2 → Nat) a + S1x128.size a ≤ S10x8192.size a
  inb_S10x8192_S1x128_4_7552 : ∀ a, (![4, 7552] : Fin 2 → Nat) a + S1x128.size a ≤ S10x8192.size a
  inb_S10x8192_S1x128_5_7552 : ∀ a, (![5, 7552] : Fin 2 → Nat) a + S1x128.size a ≤ S10x8192.size a
  inb_S10x8192_S1x128_6_7552 : ∀ a, (![6, 7552] : Fin 2 → Nat) a + S1x128.size a ≤ S10x8192.size a
  inb_S10x8192_S1x128_7_7552 : ∀ a, (![7, 7552] : Fin 2 → Nat) a + S1x128.size a ≤ S10x8192.size a
  inb_S10x8192_S1x128_8_7552 : ∀ a, (![8, 7552] : Fin 2 → Nat) a + S1x128.size a ≤ S10x8192.size a
  inb_S10x8192_S1x128_9_7552 : ∀ a, (![9, 7552] : Fin 2 → Nat) a + S1x128.size a ≤ S10x8192.size a
  inb_S8192x128_S128x128_7552_0 : ∀ a, (![7552, 0] : Fin 2 → Nat) a + S128x128.size a ≤ S8192x128.size a
  inb_S10x8192_S1x128_0_7680 : ∀ a, (![0, 7680] : Fin 2 → Nat) a + S1x128.size a ≤ S10x8192.size a
  inb_S10x8192_S1x128_1_7680 : ∀ a, (![1, 7680] : Fin 2 → Nat) a + S1x128.size a ≤ S10x8192.size a
  inb_S10x8192_S1x128_2_7680 : ∀ a, (![2, 7680] : Fin 2 → Nat) a + S1x128.size a ≤ S10x8192.size a
  inb_S10x8192_S1x128_3_7680 : ∀ a, (![3, 7680] : Fin 2 → Nat) a + S1x128.size a ≤ S10x8192.size a
  inb_S10x8192_S1x128_4_7680 : ∀ a, (![4, 7680] : Fin 2 → Nat) a + S1x128.size a ≤ S10x8192.size a
  inb_S10x8192_S1x128_5_7680 : ∀ a, (![5, 7680] : Fin 2 → Nat) a + S1x128.size a ≤ S10x8192.size a
  inb_S10x8192_S1x128_6_7680 : ∀ a, (![6, 7680] : Fin 2 → Nat) a + S1x128.size a ≤ S10x8192.size a
  inb_S10x8192_S1x128_7_7680 : ∀ a, (![7, 7680] : Fin 2 → Nat) a + S1x128.size a ≤ S10x8192.size a
  inb_S10x8192_S1x128_8_7680 : ∀ a, (![8, 7680] : Fin 2 → Nat) a + S1x128.size a ≤ S10x8192.size a
  inb_S10x8192_S1x128_9_7680 : ∀ a, (![9, 7680] : Fin 2 → Nat) a + S1x128.size a ≤ S10x8192.size a
  inb_S8192x128_S128x128_7680_0 : ∀ a, (![7680, 0] : Fin 2 → Nat) a + S128x128.size a ≤ S8192x128.size a
  inb_S10x8192_S1x128_0_7808 : ∀ a, (![0, 7808] : Fin 2 → Nat) a + S1x128.size a ≤ S10x8192.size a
  inb_S10x8192_S1x128_1_7808 : ∀ a, (![1, 7808] : Fin 2 → Nat) a + S1x128.size a ≤ S10x8192.size a
  inb_S10x8192_S1x128_2_7808 : ∀ a, (![2, 7808] : Fin 2 → Nat) a + S1x128.size a ≤ S10x8192.size a
  inb_S10x8192_S1x128_3_7808 : ∀ a, (![3, 7808] : Fin 2 → Nat) a + S1x128.size a ≤ S10x8192.size a
  inb_S10x8192_S1x128_4_7808 : ∀ a, (![4, 7808] : Fin 2 → Nat) a + S1x128.size a ≤ S10x8192.size a
  inb_S10x8192_S1x128_5_7808 : ∀ a, (![5, 7808] : Fin 2 → Nat) a + S1x128.size a ≤ S10x8192.size a
  inb_S10x8192_S1x128_6_7808 : ∀ a, (![6, 7808] : Fin 2 → Nat) a + S1x128.size a ≤ S10x8192.size a
  inb_S10x8192_S1x128_7_7808 : ∀ a, (![7, 7808] : Fin 2 → Nat) a + S1x128.size a ≤ S10x8192.size a
  inb_S10x8192_S1x128_8_7808 : ∀ a, (![8, 7808] : Fin 2 → Nat) a + S1x128.size a ≤ S10x8192.size a
  inb_S10x8192_S1x128_9_7808 : ∀ a, (![9, 7808] : Fin 2 → Nat) a + S1x128.size a ≤ S10x8192.size a
  inb_S8192x128_S128x128_7808_0 : ∀ a, (![7808, 0] : Fin 2 → Nat) a + S128x128.size a ≤ S8192x128.size a
  inb_S10x8192_S1x128_0_7936 : ∀ a, (![0, 7936] : Fin 2 → Nat) a + S1x128.size a ≤ S10x8192.size a
  inb_S10x8192_S1x128_1_7936 : ∀ a, (![1, 7936] : Fin 2 → Nat) a + S1x128.size a ≤ S10x8192.size a
  inb_S10x8192_S1x128_2_7936 : ∀ a, (![2, 7936] : Fin 2 → Nat) a + S1x128.size a ≤ S10x8192.size a
  inb_S10x8192_S1x128_3_7936 : ∀ a, (![3, 7936] : Fin 2 → Nat) a + S1x128.size a ≤ S10x8192.size a
  inb_S10x8192_S1x128_4_7936 : ∀ a, (![4, 7936] : Fin 2 → Nat) a + S1x128.size a ≤ S10x8192.size a
  inb_S10x8192_S1x128_5_7936 : ∀ a, (![5, 7936] : Fin 2 → Nat) a + S1x128.size a ≤ S10x8192.size a
  inb_S10x8192_S1x128_6_7936 : ∀ a, (![6, 7936] : Fin 2 → Nat) a + S1x128.size a ≤ S10x8192.size a
  inb_S10x8192_S1x128_7_7936 : ∀ a, (![7, 7936] : Fin 2 → Nat) a + S1x128.size a ≤ S10x8192.size a
  inb_S10x8192_S1x128_8_7936 : ∀ a, (![8, 7936] : Fin 2 → Nat) a + S1x128.size a ≤ S10x8192.size a
  inb_S10x8192_S1x128_9_7936 : ∀ a, (![9, 7936] : Fin 2 → Nat) a + S1x128.size a ≤ S10x8192.size a
  inb_S8192x128_S128x128_7936_0 : ∀ a, (![7936, 0] : Fin 2 → Nat) a + S128x128.size a ≤ S8192x128.size a
  inb_S10x8192_S1x128_0_8064 : ∀ a, (![0, 8064] : Fin 2 → Nat) a + S1x128.size a ≤ S10x8192.size a
  inb_S10x8192_S1x128_1_8064 : ∀ a, (![1, 8064] : Fin 2 → Nat) a + S1x128.size a ≤ S10x8192.size a
  inb_S10x8192_S1x128_2_8064 : ∀ a, (![2, 8064] : Fin 2 → Nat) a + S1x128.size a ≤ S10x8192.size a
  inb_S10x8192_S1x128_3_8064 : ∀ a, (![3, 8064] : Fin 2 → Nat) a + S1x128.size a ≤ S10x8192.size a
  inb_S10x8192_S1x128_4_8064 : ∀ a, (![4, 8064] : Fin 2 → Nat) a + S1x128.size a ≤ S10x8192.size a
  inb_S10x8192_S1x128_5_8064 : ∀ a, (![5, 8064] : Fin 2 → Nat) a + S1x128.size a ≤ S10x8192.size a
  inb_S10x8192_S1x128_6_8064 : ∀ a, (![6, 8064] : Fin 2 → Nat) a + S1x128.size a ≤ S10x8192.size a
  inb_S10x8192_S1x128_7_8064 : ∀ a, (![7, 8064] : Fin 2 → Nat) a + S1x128.size a ≤ S10x8192.size a
  inb_S10x8192_S1x128_8_8064 : ∀ a, (![8, 8064] : Fin 2 → Nat) a + S1x128.size a ≤ S10x8192.size a
  inb_S10x8192_S1x128_9_8064 : ∀ a, (![9, 8064] : Fin 2 → Nat) a + S1x128.size a ≤ S10x8192.size a
  inb_S8192x128_S128x128_8064_0 : ∀ a, (![8064, 0] : Fin 2 → Nat) a + S128x128.size a ≤ S8192x128.size a
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x8192.size a ≤ S10x131072.size a
  hwx0_0 : ∀ i : grid0.Coords, EltTy.bits .f32 = 32 ∨ (Rect.block (s := S10x131072) S10x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S131072x128.size a
  hwx0_3 : ∀ i : grid0.Coords, EltTy.bits .f32 = 32 ∨ (Rect.block (s := S131072x128) S8192x128.size (cc0_transform_3 i) (hinb0_3 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_v0) S10x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The function both programs compute, written once over the three argument arrays.

  For points x_n (rows of a 131072 x 10 array), centres p_k (rows of a 128 x 10 array) and a 128 x 128 matrix c,
      out[n, j] = sum over k of  exp(-(|p_k0 - x_n0| + ... + |p_k9 - x_n9|)) * c[k, j] :
  the Laplace (product-exponential) kernel matrix of the points against the centres, multiplied by c.

  `dist10` is the L1 distance summed from coordinate 0 upwards, `weight` its negative exponential, `G` the whole
  result.  Two small laws relate the two ways the distance is spelt: the absolute value of a difference does not
  depend on the order of its operands (on ALL extended reals: off the reals both sides are +infinity), and a sum
  over the ten coordinates is the left-nested sum of its ten terms.  With them the spelling "zero minus the
  distance" and the spelling "the negated (zero plus sum of |x - p|), divided by one" are the same number.
-/
import Idealize.ShloMosaic.PureOps.Ideal
import Idealize.ShloMosaic.PureOps.Ideal.Laws
import Idealize.ShloMosaic.Lib.ValueIdx

noncomputable section

namespace Cert.Tmk

open Idealize.ShloMosaic Idealize.ShloMosaic.ValueIdx

/-- The absolute value as the float model reads it at the extended reals: the larger of a number and its negation. -/
def eabs (a : EReal) : EReal := max a (-a)

/-- `|a - b| = |b - a|` on every pair of extended reals: on two reals it is the reals' law; as soon as one operand is
    infinite, one of `a - b`, `b - a` is `-inf` or `+inf`, and either way the larger of it and its negation is `+inf`. -/
theorem eabs_sub_comm (a b : EReal) : eabs (a - b) = eabs (b - a) := by
  unfold eabs
  induction a using EReal.rec with
  | bot =>
    induction b using EReal.rec with
    | bot => rfl
    | coe y => simp [sub_eq_add_neg]
    | top => simp [sub_eq_add_neg]
  | coe x =>
    induction b using EReal.rec with
    | bot => simp [sub_eq_add_neg]
    | coe y =>
      have h : ∀ u : ℝ, max ((u : ℝ) : EReal) (-((u : ℝ) : EReal)) = ((|u| : ℝ) : EReal) := fun u => by
        rw [← EReal.coe_neg, abs_eq_max_neg]
        exact (EReal.coe_strictMono.monotone.map_max).symm
      rw [← EReal.coe_sub, ← EReal.coe_sub, h, h, abs_sub_comm]
    | top => simp [sub_eq_add_neg]
  | top =>
    induction b using EReal.rec with
    | bot => simp [sub_eq_add_neg]
    | coe y => simp [sub_eq_add_neg]
    | top => simp [sub_eq_add_neg]

/-- A sum over ten indices is the left-nested sum of its ten terms. -/
theorem sum_fin10 {M : Type*} [AddCommMonoid M] (f : Fin 10 → M) :
    ∑ d : Fin 10, f d = f 0 + f 1 + f 2 + f 3 + f 4 + f 5 + f 6 + f 7 + f 8 + f 9 := by
  rw [Fin.sum_univ_castSucc, Fin.sum_univ_castSucc, Fin.sum_univ_eight]
  rfl

/-- The L1 distance of two vectors of ten extended reals, summed from coordinate 0 upwards. -/
def dist10 (a b : Fin 10 → EReal) : EReal :=
  eabs (a 0 - b 0) + eabs (a 1 - b 1) + eabs (a 2 - b 2) + eabs (a 3 - b 3) + eabs (a 4 - b 4)
    + eabs (a 5 - b 5) + eabs (a 6 - b 6) + eabs (a 7 - b 7) + eabs (a 8 - b 8) + eabs (a 9 - b 9)

theorem dist10_comm (a b : Fin 10 → EReal) : dist10 a b = dist10 b a := by
  unfold dist10
  rw [eabs_sub_comm (a 0), eabs_sub_comm (a 1), eabs_sub_comm (a 2), eabs_sub_comm (a 3), eabs_sub_comm (a 4),
    eabs_sub_comm (a 5), eabs_sub_comm (a 6), eabs_sub_comm (a 7), eabs_sub_comm (a 8), eabs_sub_comm (a 9)]

/-- The Laplace weight of a centre `a` and a point `b`: the exponential of minus their L1 distance. -/
def weight (a b : Fin 10 → EReal) : EReal := Ideal.exp (0 - dist10 a b)

/-- The spelling with the float zero's word in front. -/
theorem weight_of_zero_word (a b : Fin 10 → EReal) :
    Ideal.exp (Ideal.ofBits .f32 0x00000000#32 - dist10 a b) = weight a b := by
  rw [Ideal.ofBits_zero_f32]; rfl

/-- `1.0` denotes the real one. -/
theorem ofBits_one : Ideal.ofBits .f32 0x3F800000#32 = ((1 : ℝ) : EReal) := by
  simp [Ideal.ofBits, Ideal.ieee, -EReal.coe_mul]; norm_num

/-- The other spelling: the sum over the coordinates of `|b d - a d|`, started from the float zero, negated, divided by
    the float one, then exponentiated, is the same weight. -/
theorem weight_of_sum (a b : Fin 10 → EReal) :
    Ideal.exp (Ideal.div (-(Ideal.ofBits .f32 0x00000000#32 + ∑ d : Fin 10, eabs (b d - a d)))
      (Ideal.ofBits .f32 0x3F800000#32)) = weight a b := by
  rw [Ideal.ofBits_zero_f32, zero_add, ofBits_one, Ideal.div_coe one_ne_zero, sum_fin10 (fun d => eabs (b d - a d))]
  unfold weight
  rw [dist10_comm a b]
  unfold dist10
  simp only [one_div, inv_one, EReal.coe_one, mul_one, zero_sub]

/-- The whole result as one function of the three argument arrays, index by index. -/
def G (X : (⟨2, ![131072, 10]⟩ : Shape).Idx → EReal) (P : (⟨2, ![128, 10]⟩ : Shape).Idx → EReal)
    (C : (⟨2, ![128, 128]⟩ : Shape).Idx → EReal) : (⟨2, ![131072, 128]⟩ : Shape).Idx → EReal :=
  fun i => ∑ k : Fin 128, weight (fun d => P (ix2 k d)) (fun d => X (ix2 (i 0) d)) * C (ix2 k (i 1))

end Cert.Tmk

end
-- ==== Proof.Chunk.lean ====
/-
  One 128-column chunk of the kernel's body, as a function of what it loads.

  For a chunk the body loads the 128 x 128 matrix `c`, ten 1 x 128 rows `x_d` of the transposed points (one per
  coordinate d) and ten 128 x 128 slabs `p_d` of the lane-replicated centres.  It forms, coordinate by coordinate,
  `|p_d - (x_d broadcast down the rows)|`, adds the ten terms from d = 0 upwards, takes `exp (0 - sum)`, and
  multiplies the result, contracted over its FIRST axis, with `c`.  Read at entry (l, j) of the product this is
      sum over k of  exp (0 - (|p_0[k,l] - x_0[0,l]| + ... + |p_9[k,l] - x_9[0,l]|)) * c[k, j] :
  a matrix product into a zero accumulator is the plain sum over the contracted axis, and the contraction over the
  left operand's first axis reads it at (k, l).
-/
import proofs.«132287_g10067403342211_week1_w1_198_16_alg».proof.Proof.Gen.KernelIdeal
import proofs.«132287_g10067403342211_week1_w1_198_16_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Chunk

open Idealize.ShloMosaic Idealize.ShloMosaic.ValueIdx Cert.KernelIdeal Cert.KernelIdeal.Gen Cert.Tmk

variable {F : FTy → Type} [FloatOps F]

/-- One coordinate's term: the slab of centres minus the row of points broadcast down the 128 rows, in absolute value. -/
def term (x : Vec F S1x128 .f32) (p : Vec F S128x128 .f32) : FVec F S128x128 .f32 :=
  absf (subf (shapeCast S128x128 p shapeCasts_S128x128_S128x128)
    (broadcastTo S128x128 (shapeCast S1x128 x shapeCasts_S1x128_S1x128) broadcasts_S1x128_S128x128))

/-- The chunk's stored value: `exp (0 - (sum of the ten terms))`, contracted over its first axis with `c`, into zero. -/
def chunk (c : Vec F S128x128 .f32) (x0 x1 x2 x3 x4 x5 x6 x7 x8 x9 : Vec F S1x128 .f32) (p0 p1 p2 p3 p4 p5 p6 p7 p8 p9 : Vec F S128x128 .f32) : FVec F S128x128 .f32 :=
  matmul dot_S128x128_S128x128_S128x128_0_0_1_1_n_n none
    (exp (subf (broadcast S128x128 (Scalar.ofBits .f32 0x00000000#32))
      (addf (addf (addf (addf (addf (addf (addf (addf (addf (term x0 p0) (term x1 p1)) (term x2 p2)) (term x3 p3)) (term x4 p4)) (term x5 p5)) (term x6 p6)) (term x7 p7)) (term x8 p8)) (term x9 p9))))
    c (constant S128x128 .f32 0x00000000#32)

/-! ## The product's operand indices -/

theorem lhs_ax0 (j : S128x128.Idx) (k : (dot_S128x128_S128x128_S128x128_0_0_1_1_n_n).contr.Idx) :
    ((dot_S128x128_S128x128_S128x128_0_0_1_1_n_n).lhsIdx j k 0).val = (k ⟨0, by decide⟩).val :=
  DotDims.lhsIdx_val_of_single _ rfl j k

theorem lhs_ax1 (j : S128x128.Idx) (k : (dot_S128x128_S128x128_S128x128_0_0_1_1_n_n).contr.Idx) :
    ((dot_S128x128_S128x128_S128x128_0_0_1_1_n_n).lhsIdx j k 1).val = (j 0).val := by
  unfold DotDims.lhsIdx
  rw [dif_neg (show ¬ (1 : Fin S128x128.rank) ∈ (dot_S128x128_S128x128_S128x128_0_0_1_1_n_n).lhsBatch by decide),
    dif_pos (show (1 : Fin S128x128.rank) ∈ (dot_S128x128_S128x128_S128x128_0_0_1_1_n_n).lhsNonContracting by decide)]
  rfl

theorem rhs_ax0 (j : S128x128.Idx) (k : (dot_S128x128_S128x128_S128x128_0_0_1_1_n_n).contr.Idx) :
    ((dot_S128x128_S128x128_S128x128_0_0_1_1_n_n).rhsIdx j k 0).val = (k ⟨0, by decide⟩).val :=
  DotDims.rhsIdx_val_of_single _ rfl j k

theorem rhs_ax1 (j : S128x128.Idx) (k : (dot_S128x128_S128x128_S128x128_0_0_1_1_n_n).contr.Idx) :
    ((dot_S128x128_S128x128_S128x128_0_0_1_1_n_n).rhsIdx j k 1).val = (j 1).val := by
  unfold DotDims.rhsIdx
  rw [dif_neg (show ¬ (1 : Fin S128x128.rank) ∈ (dot_S128x128_S128x128_S128x128_0_0_1_1_n_n).rhsBatch by decide),
    dif_pos (show (1 : Fin S128x128.rank) ∈ (dot_S128x128_S128x128_S128x128_0_0_1_1_n_n).rhsNonContracting by decide)]
  rfl

/-- The product contracted over both operands' first axes, into zero, at entry (l, j): the sum over k of
    `a[k, l] * c[k, j]`. -/
theorem matmul_at (a c : FVec Ideal S128x128 .f32) (l j : Fin 128) :
    matmul (F := Ideal) dot_S128x128_S128x128_S128x128_0_0_1_1_n_n none a c (constant S128x128 .f32 0x00000000#32) (ix2 l j)
      = ∑ k : Fin 128, a (ix2 k l) * c (ix2 k j) := by
  refine (Ideal.matmul_constant_zero_apply dot_S128x128_S128x128_S128x128_0_0_1_1_n_n none a c (ix2 l j)).trans ?_
  rw [← Equiv.sum_comp (contrEquiv1 dot_S128x128_S128x128_S128x128_0_0_1_1_n_n 128 rfl rfl).symm]
  refine Finset.sum_congr rfl fun k _ => ?_
  have hk := contrEquiv1_symm_val dot_S128x128_S128x128_S128x128_0_0_1_1_n_n 128 rfl rfl k
  have e1 : (dot_S128x128_S128x128_S128x128_0_0_1_1_n_n).lhsIdx (ix2 l j) ((contrEquiv1 dot_S128x128_S128x128_S128x128_0_0_1_1_n_n 128 rfl rfl).symm k) = ix2 k l := by
    funext ax; apply Fin.ext
    match ax with
    | ⟨0, _⟩ => exact (lhs_ax0 _ _).trans hk
    | ⟨1, _⟩ => exact lhs_ax1 _ _
  have e2 : (dot_S128x128_S128x128_S128x128_0_0_1_1_n_n).rhsIdx (ix2 l j) ((contrEquiv1 dot_S128x128_S128x128_S128x128_0_0_1_1_n_n 128 rfl rfl).symm k) = ix2 k j := by
    funext ax; apply Fin.ext
    match ax with
    | ⟨0, _⟩ => exact (rhs_ax0 _ _).trans hk
    | ⟨1, _⟩ => exact rhs_ax1 _ _
  rw [e1, e2]

/-- One coordinate's term at (k, l): the slab's entry minus the row's entry at lane l, in absolute value. -/
theorem term_apply (x : Vec Ideal S1x128 .f32) (p : Vec Ideal S128x128 .f32) (k l : Fin 128) :
    term (F := Ideal) x p (ix2 k l) = eabs (p (ix2 k l) - x (ix2 (0 : Fin 1) l)) := by
  unfold term
  rw [shapeCast_self, shapeCast_self]
  show max ((p (ix2 k l) : EReal) - broadcastTo S128x128 (x : S1x128.Idx → EReal) broadcasts_S1x128_S128x128 (ix2 k l))
      (-((p (ix2 k l) : EReal) - broadcastTo S128x128 (x : S1x128.Idx → EReal) broadcasts_S1x128_S128x128 (ix2 k l))) = _
  rw [broadcastTo_1b_ab_apply]
  rfl

/-- The chunk's value at (l, j). -/
theorem chunk_apply (c : Vec Ideal S128x128 .f32) (x0 x1 x2 x3 x4 x5 x6 x7 x8 x9 : Vec Ideal S1x128 .f32) (p0 p1 p2 p3 p4 p5 p6 p7 p8 p9 : Vec Ideal S128x128 .f32)
    (l j : Fin 128) :
    chunk (F := Ideal) c x0 x1 x2 x3 x4 x5 x6 x7 x8 x9 p0 p1 p2 p3 p4 p5 p6 p7 p8 p9 (ix2 l j)
      = ∑ k : Fin 128, weight (fun d => ![p0, p1, p2, p3, p4, p5, p6, p7, p8, p9] d (ix2 k l))
          (fun d => ![x0, x1, x2, x3, x4, x5, x6, x7, x8, x9] d (ix2 (0 : Fin 1) l)) * c (ix2 k j) := by
  unfold chunk
  refine (matmul_at _ _ l j).trans ?_
  refine Finset.sum_congr rfl fun k _ => ?_
  refine congrArg (· * c (ix2 k j)) ?_
  show Ideal.exp (Ideal.ofBits .f32 0x00000000#32 - (term x0 p0 (ix2 k l) + term x1 p1 (ix2 k l) + term x2 p2 (ix2 k l) + term x3 p3 (ix2 k l) + term x4 p4 (ix2 k l) + term x5 p5 (ix2 k l) + term x6 p6 (ix2 k l) + term x7 p7 (ix2 k l) + term x8 p8 (ix2 k l) + term x9 p9 (ix2 k l))) = _
  rw [term_apply, term_apply, term_apply, term_apply, term_apply, term_apply, term_apply, term_apply, term_apply, term_apply]
  exact weight_of_zero_word (fun d => ![p0, p1, p2, p3, p4, p5, p6, p7, p8, p9] d (ix2 k l))
    (fun d => ![x0, x1, x2, x3, x4, x5, x6, x7, x8, x9] d (ix2 (0 : Fin 1) l))

end Cert.KernelIdeal.Chunk

end
-- ==== Proof.Block.lean ====
/-
  What the kernel's body leaves in its 8192 x 128 output block, as ONE function of its three input blocks.

  The body fills the block in 64 stores of 128 rows each.  Store number s writes rows 128 s .. 128 s + 127 with the
  chunk value (the module before this one) of: the whole 128 x 128 block `x2`; rows d = 0..9 of the 10 x 8192 block
  `x0` at lanes 128 s .. 128 s + 127; and the ten 128-row slabs of the 1280 x 128 block `x1`.  Entry (r, j) of the
  result, r = 128 s + l, is therefore
      sum over k of  weight (x1[128 d + k, l])_d (x0[d, r])_d * x2[k, j],      l = r mod 128,
  the same expression for every store: each store's payload is the restriction of this one function to the store's
  rows.  Stores that are all restrictions of one function, and that cover the block, leave that function.
-/
import proofs.«132287_g10067403342211_week1_w1_198_16_alg».proof.Proof.FrameKI
import proofs.«132287_g10067403342211_week1_w1_198_16_alg».proof.Proof.Chunk
import Idealize.ShloMosaic.Lib.Pipeline.Value

set_option maxRecDepth 16384

noncomputable section

namespace Cert.KernelIdeal.Block

open Idealize.ShloMosaic Idealize.ShloMosaic.ValueIdx Cert.KernelIdeal Cert.KernelIdeal.Gen Cert.KernelIdeal.GenP Cert.KernelIdeal.Chunk Cert.Tmk

/-- Row `128 d + k` of the lane-replicated table: centre k's coordinate d. -/
def slabRow (d : Fin 10) (k : Fin 128) : Fin 1280 := ⟨128 * d.val + k.val, by have := d.isLt; have := k.isLt; omega⟩

/-- The lane a block row falls on: its position inside its 128-row store. -/
def lane (r : Fin 8192) : Fin 128 := ⟨r.val % 128, Nat.mod_lt _ (by decide)⟩

/-- Entry (r, j) of the output block from the three input blocks. -/
def GblkAt (x0 : S10x8192.Idx → EReal) (x1 : S1280x128.Idx → EReal) (x2 : S128x128.Idx → EReal) (r : Fin 8192) (j : Fin 128) : EReal :=
  ∑ k : Fin 128, weight (fun d => x1 (ix2 (slabRow d k) (lane r))) (fun d => x0 (ix2 d r)) * x2 (ix2 k j)

/-- The output block as one function of the input blocks. -/
def Gblk (x0 : S10x8192.Idx → EReal) (x1 : S1280x128.Idx → EReal) (x2 : S128x128.Idx → EReal) : S8192x128.Idx → EReal :=
  fun y => GblkAt x0 x1 x2 (y 0) (y 1)

theorem hz : (![0, 0] : Fin 2 → Nat) = fun _ => 0 := funext fun a => by fin_cases a <;> rfl

/-- A 1 x 128 row at (d, o) lies inside the 10 x 8192 block. -/
theorem inbX (d : ℕ) (hd : d < 10) (o : ℕ) (ho : o + 128 ≤ 8192) :
    ∀ a, (![d, o] : Fin 2 → ℕ) a + S1x128.size a ≤ S10x8192.size a :=
  Rect.inb₂ (by show d + 1 ≤ 10; omega) (by show o + 128 ≤ 8192; exact ho)

/-- A 128 x 128 slab at row 128 d lies inside the 1280 x 128 table. -/
theorem inbS (d : ℕ) (hd : d < 10) :
    ∀ a, (![128 * d, 0] : Fin 2 → ℕ) a + S128x128.size a ≤ S1280x128.size a :=
  Rect.inb₂ (by show 128 * d + 128 ≤ 1280; omega) (by show 0 + 128 ≤ 128; omega)

/-- 128 rows from row o lie inside the 8192 x 128 block. -/
theorem inbO (o : ℕ) (ho : o + 128 ≤ 8192) :
    ∀ a, (![o, 0] : Fin 2 → ℕ) a + S128x128.size a ≤ S8192x128.size a :=
  Rect.inb₂ (by show o + 128 ≤ 8192; exact ho) (by show 0 + 128 ≤ 128; omega)

/-- Slab d of the table, loaded whole, read at (k, l): the table's row `128 d + k` at lane l. -/
theorem ld_slab (x1 : Vec Ideal S1280x128 .f32) (d : Fin 10) (k l : Fin 128) :
    View.ld x1 (Rect.unit (s := S1280x128) ![128 * d.val, 0] S128x128.size (inbS d.val d.isLt)) (ix2 k l) = x1 (ix2 (slabRow d k) l) := by
  show x1 ((Rect.unit (s := S1280x128) ![128 * d.val, 0] S128x128.size (inbS d.val d.isLt)).emb (ix2 k l)) = _
  refine congrArg x1 (funext fun a => Fin.ext ?_)
  match a with
  | ⟨0, _⟩ => show 128 * d.val + 1 * k.val = 128 * d.val + k.val; omega
  | ⟨1, _⟩ => show 0 + 1 * l.val = l.val; omega

/-- Row d of the points' block, 128 lanes from lane o, read at lane l: the block's entry (d, o + l). -/
theorem ld_row (x0 : Vec Ideal S10x8192 .f32) (d : Fin 10) (o : ℕ) (ho : o + 128 ≤ 8192) (l : Fin 128) :
    View.ld x0 (Rect.unit (s := S10x8192) ![d.val, o] S1x128.size (inbX d.val d.isLt o ho)) (ix2 (0 : Fin 1) l)
      = x0 (ix2 d ⟨o + l.val, by have := l.isLt; omega⟩) := by
  show x0 ((Rect.unit (s := S10x8192) ![d.val, o] S1x128.size (inbX d.val d.isLt o ho)).emb (ix2 (0 : Fin 1) l)) = _
  refine congrArg x0 (funext fun a => Fin.ext ?_)
  match a with
  | ⟨0, _⟩ => show d.val + 1 * 0 = d.val; omega
  | ⟨1, _⟩ => show o + 1 * l.val = o + l.val; omega

/-- ONE STORE: the chunk value of the loads at lane offset `o` (a multiple of 128) is the block function's restriction
    to rows `o .. o + 127`. -/
theorem piece_eq (x0 : Vec Ideal S10x8192 .f32) (x1 : Vec Ideal S1280x128 .f32) (x2 : Vec Ideal S128x128 .f32)
    (o : ℕ) (hmod : o % 128 = 0) (ho : o + 128 ≤ 8192)
    (y : S128x128.Idx) :
    chunk (F := Ideal) (View.ld x2 r0_0)
      (View.ld x0 (Rect.unit (s := S10x8192) ![0, o] S1x128.size (inbX 0 (by decide) o ho)))
      (View.ld x0 (Rect.unit (s := S10x8192) ![1, o] S1x128.size (inbX 1 (by decide) o ho)))
      (View.ld x0 (Rect.unit (s := S10x8192) ![2, o] S1x128.size (inbX 2 (by decide) o ho)))
      (View.ld x0 (Rect.unit (s := S10x8192) ![3, o] S1x128.size (inbX 3 (by decide) o ho)))
      (View.ld x0 (Rect.unit (s := S10x8192) ![4, o] S1x128.size (inbX 4 (by decide) o ho)))
      (View.ld x0 (Rect.unit (s := S10x8192) ![5, o] S1x128.size (inbX 5 (by decide) o ho)))
      (View.ld x0 (Rect.unit (s := S10x8192) ![6, o] S1x128.size (inbX 6 (by decide) o ho)))
      (View.ld x0 (Rect.unit (s := S10x8192) ![7, o] S1x128.size (inbX 7 (by decide) o ho)))
      (View.ld x0 (Rect.unit (s := S10x8192) ![8, o] S1x128.size (inbX 8 (by decide) o ho)))
      (View.ld x0 (Rect.unit (s := S10x8192) ![9, o] S1x128.size (inbX 9 (by decide) o ho)))
      (View.ld x1 r0_2) (View.ld x1 r0_4) (View.ld x1 r0_6) (View.ld x1 r0_8) (View.ld x1 r0_10) (View.ld x1 r0_12) (View.ld x1 r0_14) (View.ld x1 r0_16) (View.ld x1 r0_18) (View.ld x1 r0_20) y
      = Gblk x0 x1 x2 ((Rect.unit (s := S8192x128) ![o, 0] S128x128.size (inbO o ho)).emb y) := by
  obtain ⟨l, j, rfl⟩ : ∃ (l j : Fin 128), y = ix2 l j := ⟨y 0, y 1, eq_ix2 y⟩
  have hl := l.isLt
  have hr : (Rect.unit (s := S8192x128) ![o, 0] S128x128.size (inbO o ho)).emb (ix2 l j)
      = (ix2 (⟨o + l.val, by omega⟩ : Fin 8192) j : S8192x128.Idx) := by
    funext a; apply Fin.ext
    match a with
    | ⟨0, _⟩ => show o + 1 * l.val = o + l.val; omega
    | ⟨1, _⟩ => show 0 + 1 * j.val = j.val; omega
  have hlane : lane (⟨o + l.val, by omega⟩ : Fin 8192) = l := Fin.ext (by show (o + l.val) % 128 = l.val; omega)
  rw [chunk_apply, hr]
  show _ = GblkAt x0 x1 x2 (⟨o + l.val, by omega⟩ : Fin 8192) j
  unfold GblkAt
  rw [hlane]
  refine Finset.sum_congr rfl fun k _ => ?_
  refine congrArg₂ (· * ·) (congrArg₂ weight (funext fun d => ?_) (funext fun d => ?_)) ?_
  · match d with
      | ⟨0, _⟩ => exact ld_slab x1 0 k l
      | ⟨1, _⟩ => exact ld_slab x1 1 k l
      | ⟨2, _⟩ => exact ld_slab x1 2 k l
      | ⟨3, _⟩ => exact ld_slab x1 3 k l
      | ⟨4, _⟩ => exact ld_slab x1 4 k l
      | ⟨5, _⟩ => exact ld_slab x1 5 k l
      | ⟨6, _⟩ => exact ld_slab x1 6 k l
      | ⟨7, _⟩ => exact ld_slab x1 7 k l
      | ⟨8, _⟩ => exact ld_slab x1 8 k l
      | ⟨9, _⟩ => exact ld_slab x1 9 k l
      | ⟨_ + 10, h⟩ => exact absurd h (by omega)
  · match d with
      | ⟨0, _⟩ => exact ld_row x0 0 o ho l
      | ⟨1, _⟩ => exact ld_row x0 1 o ho l
      | ⟨2, _⟩ => exact ld_row x0 2 o ho l
      | ⟨3, _⟩ => exact ld_row x0 3 o ho l
      | ⟨4, _⟩ => exact ld_row x0 4 o ho l
      | ⟨5, _⟩ => exact ld_row x0 5 o ho l
      | ⟨6, _⟩ => exact ld_row x0 6 o ho l
      | ⟨7, _⟩ => exact ld_row x0 7 o ho l
      | ⟨8, _⟩ => exact ld_row x0 8 o ho l
      | ⟨9, _⟩ => exact ld_row x0 9 o ho l
      | ⟨_ + 10, h⟩ => exact absurd h (by omega)
  · exact congrFun (View.ld_unit_zero hz _ x2) (ix2 k j)

/-- THE BLOCK: the body's 64 stores leave the block function. -/
theorem out_eq (x0 : Vec Ideal S10x8192 .f32) (x1 : Vec Ideal S1280x128 .f32) (x2 : Vec Ideal S128x128 .f32) :
    out0_3 (F := Ideal) x0 x1 x2 = Gblk x0 x1 x2 := by
  funext y
  unfold out0_3
  dsimp only
  refine View.canon_apply_of_pieces (Gblk x0 x1 x2) _ ?_ y (cover0_3 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  iterate 64 (refine List.forall_mem_cons.mpr ⟨fun x => piece_eq x0 x1 x2 _ (by norm_num) (by norm_num) x, ?_⟩)
  exact List.forall_mem_nil _

end Cert.KernelIdeal.Block

end
-- ==== Proof.HostOps.lean ====
/-
  The two arrays the host prepares for the kernel, read at an index.

  Before the kernel runs, the host transposes the 131072 x 10 array of points into a 10 x 131072 one, and builds from
  the 128 x 10 array of centres a lane-replicated table of 1280 x 128 entries: the centres transposed (10 x 128), a
  unit axis appended (10 x 128 x 1), that axis broadcast to 128 lanes (10 x 128 x 128), and the first two axes merged
  (1280 x 128).  Row `128 d + k` of the table therefore holds, in every lane, coordinate d of centre k; and entry
  (d, n) of the transposed points is coordinate d of point n.
-/
import proofs.«132287_g10067403342211_week1_w1_198_16_alg».proof.Proof.FrameKI
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostOps

open Idealize.ShloMosaic Idealize.ShloMosaic.ValueIdx Idealize.ShloMosaic.TcCoe Idealize.ShloMosaic.StableHlo Idealize.SL.Sem
open Cert.KernelIdeal Cert.KernelIdeal.Gen Cert.KernelIdeal.GenP

variable (m : (ℓ : Loc nD τ sig) → Buf (Elt Ideal) ℓ)

/-- The transposed points, as the host's one operation of the argument. -/
theorem v0_eq (c : Dev nD) :
    (V m c main_v0 : S10x131072.Idx → EReal)
      = transpose S10x131072 [1, 0] (m ((c : Thread nD τ).loc main_arg0)) transposes_S131072x10_S10x131072_1_0 := by
  dsimp only [V, hostOps0]; after_results

/-- Entry (d, n) of the transposed points is coordinate d of point n. -/
theorem v0_apply (c : Dev nD) (d : Fin 10) (n : Fin 131072) :
    (V m c main_v0 : S10x131072.Idx → EReal) (ix2 d n) = m ((c : Thread nD τ).loc main_arg0) (ix2 n d) := by
  rw [v0_eq]
  exact transpose_ix2_apply _ _ d n

/-- The lane-replicated table, as the host's four operations of the argument. -/
theorem v4_eq (c : Dev nD) :
    (V m c main_v4 : S1280x128.Idx → EReal)
      = shapeCast S1280x128 (broadcastInDim S10x128x128 ![0, 1, 2] bcast_S10x128x1_S10x128x128_0_1_2
          (broadcastInDim S10x128x1 ![0, 1] bcast_S10x128_S10x128x1_0_1
            (transpose S10x128 [1, 0] (m ((c : Thread nD τ).loc main_arg1)) transposes_S128x10_S10x128_1_0)))
          shapeCasts_S10x128x128_S1280x128 := by
  dsimp only [V, hostOps0]; after_results; rfl

/-- Row `128 d + k` of the table holds coordinate d of centre k, in every lane. -/
theorem v4_apply (c : Dev nD) (d : Fin 10) (k l : Fin 128) (r : Fin 1280) (hr : r.val = 128 * d.val + k.val) :
    (V m c main_v4 : S1280x128.Idx → EReal) (ix2 r l) = m ((c : Thread nD τ).loc main_arg1) (ix2 k d) := by
  rw [v4_eq]
  refine (shapeCast_apply _ shapeCasts_S10x128x128_S1280x128 (ix2 r l) (ix3 d k l) ?_).trans ?_
  · rw [Shape.rowMajor_val_three, Shape.rowMajor_val_two]
    show (d.val * 128 + k.val) * 128 + l.val = r.val * 128 + l.val
    omega
  refine (broadcastInDim_apply ![0, 1, 2] bcast_S10x128x1_S10x128x128_0_1_2 _ (ix3 d k l) (ix3 d k (0 : Fin 1))
    (fun a => by match a with | ⟨0, _⟩ => rfl | ⟨1, _⟩ => rfl | ⟨2, _⟩ => rfl)).trans ?_
  refine (broadcastInDim_apply ![0, 1] bcast_S10x128_S10x128x1_0_1 _ (ix3 d k (0 : Fin 1)) (ix2 d k)
    (fun a => by match a with | ⟨0, _⟩ => rfl | ⟨1, _⟩ => rfl)).trans ?_
  exact transpose_ix2_apply _ _ d k

end Cert.KernelIdeal.HostOps

end
-- ==== Proof.Whole.lean ====
/-
  From the kernel's blocks to its whole result array.

  The grid has 16 points.  Point t fetches columns 8192 t .. 8192 t + 8191 of the transposed points, the whole
  lane-replicated table and the whole matrix c, and writes back rows 8192 t .. 8192 t + 8191 of the result.  By the
  modules before this one the body leaves in its output block the block function of its input blocks; reading the
  input blocks back through the host's transposition and replication, entry (r, j) of point t's block is
      sum over k of  weight (centre k) (point 8192 t + r) * c[k, j],
  which is entry (8192 t + r, j) of the function `G` of the three argument arrays.  The sixteen row blocks cover the
  result array (row n lies in block n / 8192), so the array ends holding `G`.
-/
import proofs.«132287_g10067403342211_week1_w1_198_16_alg».proof.Proof.ValueKI
import proofs.«132287_g10067403342211_week1_w1_198_16_alg».proof.Proof.Block
import proofs.«132287_g10067403342211_week1_w1_198_16_alg».proof.Proof.HostOps

set_option maxRecDepth 16384

noncomputable section

namespace Cert.KernelIdeal.Whole

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP Cert.KernelIdeal.Block Cert.KernelIdeal.HostOps Cert.Tmk

variable (m : (ℓ : Loc nD τ sig) → Buf (Elt Ideal) ℓ) (ρ : Dev nD → PrngReg)

/-- The three argument arrays on core c. -/
abbrev X (c : Dev nD) : S131072x10.Idx → EReal := m ((c : Thread nD τ).loc main_arg0)
abbrev P (c : Dev nD) : S128x10.Idx → EReal := m ((c : Thread nD τ).loc main_arg1)
abbrev C (c : Dev nD) : S128x128.Idx → EReal := m ((c : Thread nD τ).loc main_arg2)

/-- The printed index maps, decided over the sixteen grid points: the points' window moves along its second axis and
    the result's along its first, the table and the matrix stay. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 16 := by
  have h := t.isLt
  have e : cfg0.N = 16 := N_0
  omega

/-- Point t's block of the transposed points at (d, r): coordinate d of point `8192 t + r`. -/
theorem iblk0_apply (c : Dev nD) (t : Fin cfg0.N) (d : Fin 10) (r : Fin 8192) (n : Fin 131072)
    (hn : n.val = 8192 * t.val + r.val) :
    (iblk m c 0 t : S10x8192.Idx → EReal) (ix2 d r) = X m c (ix2 n d) := by
  obtain ⟨e0, e1, -⟩ := idx_facts t
  unfold iblk
  rw [View.read_apply]
  show (V m c main_v0 : S10x131072.Idx → EReal) _ = _
  refine (congrArg (V m c main_v0 : S10x131072.Idx → EReal) (?_ : _ = ix2 d n)).trans (v0_apply m c d n)
  funext a; apply Fin.ext
  match a with
  | ⟨0, _⟩ => show win0_0.index t (0 : Fin 2) * 10 + 1 * d.val = d.val; rw [e0]; omega
  | ⟨1, _⟩ => show win0_0.index t (1 : Fin 2) * 8192 + 1 * r.val = n.val; rw [e1, hn]; omega

/-- The table's block (the whole table) at row `128 d + k`: coordinate d of centre k. -/
theorem iblk1_apply (c : Dev nD) (t : Fin cfg0.N) (d : Fin 10) (k l : Fin 128) :
    (iblk m c 1 t : S1280x128.Idx → EReal) (ix2 (slabRow d k) l) = P m c (ix2 k d) := by
  obtain ⟨-, -, e0, e1, -⟩ := idx_facts t
  unfold iblk
  rw [View.read_apply]
  show (V m c main_v4 : S1280x128.Idx → EReal) _ = _
  refine (congrArg (V m c main_v4 : S1280x128.Idx → EReal) (?_ : _ = ix2 (slabRow d k) l)).trans
    (v4_apply m c d k l (slabRow d k) rfl)
  funext a; apply Fin.ext
  match a with
  | ⟨0, _⟩ => show win0_1.index t (0 : Fin 2) * 1280 + 1 * (slabRow d k).val = (slabRow d k).val; rw [e0]; omega
  | ⟨1, _⟩ => show win0_1.index t (1 : Fin 2) * 128 + 1 * l.val = l.val; rw [e1]; omega

/-- The matrix's block is the matrix. -/
theorem iblk2_apply (c : Dev nD) (t : Fin cfg0.N) (k j : Fin 128) :
    (iblk m c 2 t : S128x128.Idx → EReal) (ix2 k j) = C m c (ix2 k j) := by
  obtain ⟨-, -, -, -, e0, e1, -⟩ := idx_facts t
  unfold iblk
  rw [View.read_apply]
  show (V m c main_arg2 : S128x128.Idx → EReal) _ = _
  rw [V_main_arg2]
  refine congrArg (C m c) ?_
  funext a; apply Fin.ext
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- Entry (r, j) of point t's output block is entry (8192 t + r, j) of `G` of the arguments. -/
theorem point_eq (c : Dev nD) (t : Fin cfg0.N) (r : Fin 8192) (j : Fin 128) (n : Fin 131072)
    (hn : n.val = 8192 * t.val + r.val) :
    GblkAt (iblk m c 0 t) (iblk m c 1 t) (iblk m c 2 t) r j = G (X m c) (P m c) (C m c) (ix2 n j) := by
  unfold GblkAt G
  refine Finset.sum_congr rfl fun k _ => ?_
  refine congrArg₂ (· * ·) (congrArg₂ weight (funext fun d => ?_) (funext fun d => ?_)) ?_
  · exact iblk1_apply m c t d k (lane r)
  · exact iblk0_apply m c t d r n hn
  · exact iblk2_apply m c t k j

/-- WHAT POINT t WRITES BACK is block t of `G` of the argument arrays. -/
theorem flushed_eq (c : Dev nD) (t : Fin cfg0.N) :
    (dats m 0 c).flushed 3 t = ((cfg0.win 3).blk t).view.read (Elt Ideal) (G (X m c) (P m c) (C m c)) := by
  obtain ⟨-, -, -, -, -, -, e0, e1⟩ := idx_facts t
  have ht := t_lt t
  rw [Cert.KernelIdeal.ValueP.flushed3]
  rw [out_eq]
  funext y
  rw [View.read_apply]
  have hy0 : (y 0).val < 8192 := (y 0).isLt
  show GblkAt (iblk m c 0 t) (iblk m c 1 t) (iblk m c 2 t) (y 0) (y 1) = _
  refine (point_eq m c t (y 0) (y 1) ⟨8192 * t.val + (y 0).val, by omega⟩ rfl).trans ?_
  refine congrArg (G (X m c) (P m c) (C m c)) ?_
  funext a; apply Fin.ext
  match a with
  | ⟨0, _⟩ => show 8192 * t.val + (y 0).val = win0_3.index t (0 : Fin 2) * 8192 + 1 * (y 0).val; rw [e0]; omega
  | ⟨1, _⟩ => show (y 1).val = win0_3.index t (1 : Fin 2) * 128 + 1 * (y 1).val; rw [e1]; omega

/-- An index of the result array is in point t's block iff each coordinate is in the block's range on its axis. -/
theorem mem_blk (t : Fin cfg0.N) (i : S131072x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v5).slice (win0_3.rect t)).set ↔ _
  rw [View.set_slice_whole, Rect.mem_set_unit]
  exact Iff.rfl

/-- Row n of the result lies in the block of point `n / 8192`. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  let t : Fin cfg0.N := ⟨(i 0).val / 8192, by rw [show cfg0.N = 16 from N_0]; omega⟩
  obtain ⟨-, -, -, -, -, -, e0, e1⟩ := idx_facts t
  have htv : t.val = (i 0).val / 8192 := rfl
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; rw [e0, htv]; omega
  | ⟨1, _⟩ => show win0_3.index t (1 : Fin 2) * 128 ≤ (i 1).val ∧ (i 1).val < win0_3.index t (1 : Fin 2) * 128 + 128; rw [e1]; omega

/-- THE ARRAY after the run is `G` of the argument arrays. -/
theorem final (c : Dev nD) : (dats m 0 c).arrAt 3 cfg0.N = G (X m c) (P m c) (C m c) :=
  (dats m 0 c).arrAt_eq_of_cover 3 (G (X m c) (P m c) (C m c)) (fun t _ => flushed_eq m c t) (cover)

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v5) = G (X m c) (P m c) (C m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.ValueP.run_blocks m ρ)

end Cert.KernelIdeal.Whole

end
-- ==== Proof.Ref.lean ====
/-
  The reference computes the same function `G`.

  Its program forms |x[n,d] - p[k,d]| for every point n, centre k and coordinate d (two broadcasts each, a
  subtraction, an absolute value), sums over d starting from the float zero, negates, divides by the float one,
  exponentiates, and multiplies the 131072 x 128 matrix so obtained with c.  Read at entry (n, k) the exponentiated
  stage is the Laplace weight of centre k and point n (the law `weight_of_sum`: the absolute value of a difference
  does not depend on the order of its operands, a division by one changes nothing, zero is neutral); read at entry
  (n, j) the product is the sum over k of that weight times c[k, j]: the function `G` of the three arguments.
-/
import proofs.«132287_g10067403342211_week1_w1_198_16_alg».proof.Proof.Gen.ReferenceIdeal.Run
import proofs.«132287_g10067403342211_week1_w1_198_16_alg».proof.Proof.Gen.ReferenceIdeal.Read
import proofs.«132287_g10067403342211_week1_w1_198_16_alg».proof.Proof.Spec

noncomputable section

namespace Cert.ReferenceIdeal.Ref

open Idealize.ShloMosaic Idealize.ShloMosaic.ValueIdx Cert.ReferenceIdeal Cert.ReferenceIdeal.Gen Cert.ReferenceIdeal.Read Cert.Tmk

/-- The absolute difference stage at (n, k, d): `|x[n, d] - p[k, d]|`. -/
theorem v5_at (x0 : (⟨S131072x10, .f32⟩ : BufTy).Contents (Elt Ideal)) (x1 : (⟨S128x10, .f32⟩ : BufTy).Contents (Elt Ideal)) (n : Fin 131072) (k : Fin 128) (d : Fin 10) :
    val_main_v5 (F := Ideal) x0 x1 (idx_main_v6 (ix2 n k) d) = eabs (x0 (ix2 n d) - x1 (ix2 k d)) := by
  rw [val_main_v5_apply, val_main_v4_apply, val_main_v2_apply, val_main_v0_apply, val_main_v3_apply, val_main_v1_apply]
  have e0 : idx_main_v0 (idx_main_v2 (idx_main_v6 (ix2 n k) d)) = ix2 n d :=
    funext fun a => Fin.ext (by match a with | ⟨0, _⟩ => rfl | ⟨1, _⟩ => rfl)
  have e1 : idx_main_v1 (idx_main_v3 (idx_main_v6 (ix2 n k) d)) = ix2 k d :=
    funext fun a => Fin.ext (by match a with | ⟨0, _⟩ => rfl | ⟨1, _⟩ => rfl)
  rw [e0, e1]
  rfl

/-- The exponentiated stage at (n, k) is the Laplace weight of centre k and point n. -/
theorem v10_at (x0 : (⟨S131072x10, .f32⟩ : BufTy).Contents (Elt Ideal)) (x1 : (⟨S128x10, .f32⟩ : BufTy).Contents (Elt Ideal)) (n : Fin 131072) (k : Fin 128) :
    val_main_v10 (F := Ideal) x0 x1 (ix2 n k) = weight (fun d => x1 (ix2 k d)) (fun d => x0 (ix2 n d)) := by
  rw [val_main_v10_apply, val_main_v9_apply, val_main_v7_apply, val_main_v6_apply, val_main_v8_apply,
    val_main_cst_0_apply, val_main_cst_apply]
  simp only [v5_at]
  exact weight_of_sum (fun d => x1 (ix2 k d)) (fun d => x0 (ix2 n d))

/-- THE REFERENCE'S RESULT is `G` of the three arguments. -/
theorem result_eq (x0 : (⟨S131072x10, .f32⟩ : BufTy).Contents (Elt Ideal)) (x1 : (⟨S128x10, .f32⟩ : BufTy).Contents (Elt Ideal)) (x2 : (⟨S128x128, .f32⟩ : BufTy).Contents (Elt Ideal)) :
    val_main_v11 (F := Ideal) x0 x1 x2 = G x0 x1 x2 := by
  funext i
  obtain ⟨n, j, rfl⟩ : ∃ (n : Fin 131072) (j : Fin 128), i = ix2 n j := ⟨i 0, i 1, eq_ix2 i⟩
  rw [val_main_v11_apply]
  show _ = ∑ k : Fin 128, weight (fun d => x1 (ix2 k d)) (fun d => x0 (ix2 n d)) * x2 (ix2 k j)
  refine Finset.sum_congr rfl fun k _ => ?_
  have el : lidx_main_v11 (ix2 n j) k = ix2 n k :=
    funext fun a => Fin.ext (by match a with | ⟨0, _⟩ => rfl | ⟨1, _⟩ => rfl)
  have er : ridx_main_v11 (ix2 n j) k = ix2 k j :=
    funext fun a => Fin.ext (by match a with | ⟨0, _⟩ => rfl | ⟨1, _⟩ => rfl)
  rw [el, er, v10_at]

end Cert.ReferenceIdeal.Ref

end
-- ==== Proof.lean ====
/-
  The claim: the Pallas kernel and its reference compute the same array over the extended reals.

  Both compute, for points x_n (131072 of them, ten coordinates each), centres p_k (128 of them) and a 128 x 128 matrix c,
      out[n, j] = sum over k of  exp(-(|p_k0 - x_n0| + ... + |p_k9 - x_n9|)) * c[k, j]
  (the function `Cert.Tmk.G`).  The kernel works on the transposed points and a lane-replicated table of the centres, sixteen
  row blocks of 8192 points, each in 64 chunks of 128 points whose weights are formed transposed and contracted with c over
  their first axis; the reference forms the whole 131072 x 128 weight matrix and multiplies it with c.  The two agree by: the
  absolute value of a difference does not depend on the order of its operands (on every pair of extended reals, so the
  precondition that the inputs be finite is never opened), a sum of ten terms is the same in either nesting, a division by one
  and an added or subtracted zero change nothing, and a matrix product into a zero accumulator is the plain sum.

  The three frames: the kernel's two from its frame certificate (the body's run part by part), the reference's from its run
  with the result dropped.  The idealization rewrote nothing, so `preserves` is trivial.
-/
import proofs.«132287_g10067403342211_week1_w1_198_16_alg».proof.Defs
import proofs.«132287_g10067403342211_week1_w1_198_16_alg».proof.Proof.Gen.Kernel
import proofs.«132287_g10067403342211_week1_w1_198_16_alg».proof.Proof.FrameK
import proofs.«132287_g10067403342211_week1_w1_198_16_alg».proof.Proof.Gen.KernelIdeal
import proofs.«132287_g10067403342211_week1_w1_198_16_alg».proof.Proof.FrameKI
import proofs.«132287_g10067403342211_week1_w1_198_16_alg».proof.Proof.Gen.ReferenceIdeal
import proofs.«132287_g10067403342211_week1_w1_198_16_alg».proof.Proof.Gen.ReferenceIdeal.Run
import proofs.«132287_g10067403342211_week1_w1_198_16_alg».proof.Proof.Gen.Pre_finite_inputs
import proofs.«132287_g10067403342211_week1_w1_198_16_alg».proof.Proof.Whole
import proofs.«132287_g10067403342211_week1_w1_198_16_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `G` of the (agreeing) arguments. -/
theorem algebraic : Cert.algebraic_KernelIdeal_ReferenceIdeal := by
  intro m ρ m' ρ' _ hagree
  refine ⟨fun c => Cert.Tmk.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
